-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 47
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S128x128, .f32⟩
  | .hbm, ⟨26, _⟩ => ⟨S128x128, .f32⟩
  | .hbm, ⟨27, _⟩ => ⟨S1x128, .f32⟩
  | .hbm, ⟨28, _⟩ => ⟨S1x128, .f32⟩
  | .hbm, ⟨29, _⟩ => ⟨S50000x128, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_1_0_0_n_n_wf : DotDims.WF S50000x128 S128x128 S50000x128 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.BatchNorm.lean ====
/-
  Batch normalisation of a dense layer's activations, as plain functions of row and column.

  The activations are `h n j = max (agg·Wl + bl + x·Wr + br) 0` for 50000 rows and 128 columns.  A column's mean is its
  sum over the rows divided by the row count; its variance can be written two ways, as the mean of the squares less
  the square of the mean (`varK`) or as the mean of the squared deviations from the mean (`varR`).  Over the reals the
  two are one number; on the extended reals they agree as soon as every activation is a real number, which is what
  this file proves (`varK_eq_varR`).  The normalised output scales the deviation from the mean by the inverse root of
  the variance plus a small constant, then applies a gain and an offset per column.
-/
import Idealize.ShloMosaic.PureOps.Ideal
import Idealize.ShloMosaic.PureOps.Ideal.Laws
import Idealize.ShloMosaic.Lib.ValueIdx

noncomputable section

open scoped BigOperators

namespace SageBN

open Idealize.ShloMosaic Idealize.ShloMosaic.ValueIdx

/-- The row count as the f32 word both programs divide by (50000.0). -/
abbrev cntW : EReal := Ideal.ofBits .f32 0x47435000#32
/-- The small constant added to the variance, as the f32 word both programs spell. -/
abbrev epsW : EReal := Ideal.ofBits .f32 0x3727C5AC#32
/-- The zero word the positive part is taken against. -/
abbrev zeroW : EReal := Ideal.ofBits .f32 0x00000000#32

/-- A function of row and column as an array over the two-axis index. -/
def arr2 {a b : ℕ} (f : Fin a → Fin b → EReal) : (⟨2, ![a, b]⟩ : Shape).Idx → EReal := fun i => f (i 0) (i 1)

@[simp] theorem arr2_ix2 {a b : ℕ} (f : Fin a → Fin b → EReal) (p : Fin a) (q : Fin b) : arr2 f (ix2 p q) = f p q := rfl

/-- The activations: the positive part of two dense layers' sum.  `wl j k` is the weight from input `k` to output `j`. -/
def hid (agg x : Fin 50000 → Fin 128 → EReal) (wl wr : Fin 128 → Fin 128 → EReal) (bl br : Fin 128 → EReal) :
    Fin 50000 → Fin 128 → EReal :=
  fun n j => max ((((∑ k : Fin 128, agg n k * wl j k) + bl j) + (∑ k : Fin 128, x n k * wr j k)) + br j) zeroW

/-- A column's mean over the rows. -/
def colMean (h : Fin 50000 → Fin 128 → EReal) (j : Fin 128) : EReal := Ideal.div (∑ n : Fin 50000, h n j) cntW

/-- A column's variance as the mean of the squares less the square of the mean. -/
def varK (h : Fin 50000 → Fin 128 → EReal) (j : Fin 128) : EReal :=
  Ideal.div (∑ n : Fin 50000, h n j * h n j) cntW - colMean h j * colMean h j

/-- A column's variance as the mean of the squared deviations from the mean. -/
def varR (h : Fin 50000 → Fin 128 → EReal) (j : Fin 128) : EReal :=
  Ideal.div (∑ n : Fin 50000, (h n j - colMean h j) * (h n j - colMean h j)) cntW

/-- The normalised output, for a variance `v` per column. -/
def norm (g b : Fin 128 → EReal) (h : Fin 50000 → Fin 128 → EReal) (v : Fin 128 → EReal) : Fin 50000 → Fin 128 → EReal :=
  fun n j => g j * (h n j - colMean h j) * Ideal.rsqrt (v j + epsW) + b j

/-- The row-count word denotes the real number 50000: sign 0, exponent 142, significand 1 + 0x435000 / 2^23. -/
theorem bn_cntW_eq : Ideal.ofBits .f32 0x47435000#32 = ((50000 : ℝ) : EReal) := by
  simp [Ideal.ofBits, Ideal.ieee, -EReal.coe_mul]; norm_num

/-- A finite sum of real numbers read in the extended reals is the real sum read there. -/
theorem bn_coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is a real number is a real number: add the witnesses. -/
theorem bn_sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨t, ht⟩ := ih (fun i hi => hf i (Finset.mem_insert_of_mem hi))
    exact ⟨r + t, by rw [Finset.sum_insert ha, hr, ht, EReal.coe_add]⟩

/-- Over the reals, for a finite family of `c` numbers with mean `m = (∑ r) / c`: the mean of the squares less the
    square of the mean is the mean of the squared deviations.  Expanding `(r - m)² = r² - 2·m·r + m²` and summing gives
    `∑ (r - m)² = ∑ r² - 2·m·∑ r + c·m²`, and `c·m = ∑ r` turns the last two terms into `- c·m²`. -/
theorem bn_var_real {ι : Type} [Fintype ι] (r : ι → ℝ) (c : ℝ) (hc : (Fintype.card ι : ℝ) = c) (hc0 : c ≠ 0) :
    (∑ n, r n * r n) * (1 / c) - ((∑ n, r n) * (1 / c)) * ((∑ n, r n) * (1 / c))
      = (∑ n, (r n - (∑ n, r n) * (1 / c)) * (r n - (∑ n, r n) * (1 / c))) * (1 / c) := by
  set m : ℝ := (∑ n, r n) * (1 / c) with hm
  have hexp : ∀ n, (r n - m) * (r n - m) = r n * r n - 2 * m * r n + m * m := fun n => by ring
  have hsum : ∑ n, (r n - m) * (r n - m) = (∑ n, r n * r n) - 2 * m * (∑ n, r n) + c * (m * m) := by
    simp only [hexp, Finset.sum_add_distrib, Finset.sum_sub_distrib, ← Finset.mul_sum, Finset.sum_const,
      Finset.card_univ, nsmul_eq_mul, hc]
    ring
  rw [hsum, hm]
  field_simp
  ring

/-- The two spellings of the variance agree when every activation is a real number. -/
theorem varK_eq_varR (h : Fin 50000 → Fin 128 → EReal) (hfin : ∀ n j, ∃ r : ℝ, h n j = (r : EReal)) : varK h = varR h := by
  -- One column at a time; name the column's real entries, so that every sum, product and difference below is the
  -- extended-real reading of a real expression, and division by the row count is multiplication by 1 / 50000.
  funext j
  choose r hr using fun n => hfin n j
  have hN : (50000 : ℝ) ≠ 0 := by norm_num
  have hcard : ((Fintype.card (Fin 50000) : ℕ) : ℝ) = 50000 := by rw [Fintype.card_fin]; norm_num
  unfold varK varR colMean cntW
  simp only [bn_cntW_eq, Ideal.div_coe hN, hr, ← EReal.coe_mul, bn_coe_sum, ← EReal.coe_sub]
  rw [bn_var_real r 50000 hcard hN]

/-- The activations are real numbers when every input of the two dense layers is. -/
theorem hid_real (agg x : Fin 50000 → Fin 128 → EReal) (wl wr : Fin 128 → Fin 128 → EReal) (bl br : Fin 128 → EReal)
    (hagg : ∀ n k, ∃ r : ℝ, agg n k = (r : EReal)) (hx : ∀ n k, ∃ r : ℝ, x n k = (r : EReal))
    (hwl : ∀ j k, ∃ r : ℝ, wl j k = (r : EReal)) (hwr : ∀ j k, ∃ r : ℝ, wr j k = (r : EReal))
    (hbl : ∀ j, ∃ r : ℝ, bl j = (r : EReal)) (hbr : ∀ j, ∃ r : ℝ, br j = (r : EReal)) :
    ∀ n j, ∃ r : ℝ, hid agg x wl wr bl br n j = (r : EReal) := by
  intro n j
  -- Each dense layer's sum is a real number, its terms being products of reals.
  obtain ⟨s1, hs1⟩ := bn_sum_real Finset.univ (fun k => agg n k * wl j k) (fun k _ => by
    obtain ⟨a, ha⟩ := hagg n k; obtain ⟨w, hw⟩ := hwl j k
    exact ⟨a * w, by rw [ha, hw, EReal.coe_mul]⟩)
  obtain ⟨s2, hs2⟩ := bn_sum_real Finset.univ (fun k => x n k * wr j k) (fun k _ => by
    obtain ⟨a, ha⟩ := hx n k; obtain ⟨w, hw⟩ := hwr j k
    exact ⟨a * w, by rw [ha, hw, EReal.coe_mul]⟩)
  obtain ⟨b1, hb1⟩ := hbl j
  obtain ⟨b2, hb2⟩ := hbr j
  have hsum : (((∑ k : Fin 128, agg n k * wl j k) + bl j) + (∑ k : Fin 128, x n k * wr j k)) + br j
      = ((s1 + b1 + s2 + b2 : ℝ) : EReal) := by
    rw [hs1, hs2, hb1, hb2, EReal.coe_add, EReal.coe_add, EReal.coe_add]
  unfold hid zeroW
  rw [hsum, Ideal.ofBits_zero_f32]
  -- The larger of a real number and zero is one of the two.
  rcases le_total ((s1 + b1 + s2 + b2 : ℝ) : EReal) 0 with hle | hle
  · exact ⟨0, by rw [max_eq_right hle, EReal.coe_zero]⟩
  · exact ⟨s1 + b1 + s2 + b2, by rw [max_eq_left hle]⟩

/-- A finite sum of real numbers, taken in the extended reals, is a real number. -/
theorem sum_real {ι : Type} (s : Finset ι) (f : ι → EReal) (hf : ∀ i ∈ s, ∃ r : ℝ, f i = (r : EReal)) :
    ∃ r : ℝ, ∑ i ∈ s, f i = (r : EReal) :=
  bn_sum_real s f hf

end SageBN

end
-- ==== Proof.NeighbourSum.lean ====
/-
  The neighbour sums both programs start from.

  For every edge `(r, s)` of the edge list (row 0 holds the `r`s, row 1 the `s`s, a negative `s` counted from the end),
  row `s` of `x` is added into row `r` of an all-zero array; an `r` outside the array adds nothing.  Both programs
  spell this with the same host operations, so they compute one function (`aggK_eq_ref`), and since every entry of the
  result is zero plus a finite sum of entries of `x`, it is a real number whenever every entry of `x` is (`aggK_real`).
-/
import proofs.«112405_j24120536334768_1_alg».proof.Proof.Gen.KernelIdeal
import proofs.«112405_j24120536334768_1_alg».proof.Proof.Gen.ReferenceIdeal.Read
import proofs.«112405_j24120536334768_1_alg».proof.Proof.BatchNorm

noncomputable section

open Idealize.ShloMosaic Idealize.ShloMosaic.ValueIdx

namespace Cert.KernelIdeal.NeighbourSum

open Cert.KernelIdeal Cert.KernelIdeal.Gen

/-- The neighbour sums, in the kernel program's spelling of the host operations. -/
def aggK (x : FVec Ideal S50000x128 .f32) (e : IVec S2x800000 32) : FVec Ideal S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![0, 0] e slices_S2x800000_S1x800000_0_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![1, 0] e slices_S2x800000_S1x800000_1_0) shapeCasts_S1x800000_S800000) (broadcastInDim S800000 ![] bcast_S_S800000 (constantI S_ 32 0#32))) (addi (shapeCast _ (extractStridedSlice S1x800000 ![1, 0] e slices_S2x800000_S1x800000_1_0) shapeCasts_S1x800000_S800000) (broadcastInDim S800000 ![] bcast_S_S800000 (constantI S_ 32 50000#32))) (shapeCast _ (extractStridedSlice S1x800000 ![1, 0] e slices_S2x800000_S1x800000_1_0) shapeCasts_S1x800000_S800000))))

/-- An accumulating scatter of real numbers into real numbers holds real numbers: every entry is an entry of the
    operand plus a finite sum of update entries. -/
theorem scatterAdd_real {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) :
    ∀ i, ∃ r : ℝ, Host.scatterAdd d x idx upd i = (r : EReal) := by
  intro i
  obtain ⟨a, ha⟩ := hx i
  obtain ⟨b, hb⟩ := SageBN.sum_real (Finset.univ.filter (fun j => d.resultIdx? j idx = some i)) upd (fun j _ => hu j)
  refine ⟨a + b, ?_⟩
  show x i + ∑ j ∈ Finset.univ.filter (fun j => d.resultIdx? j idx = some i), upd j = ((a + b : ℝ) : EReal)
  rw [ha, hb, EReal.coe_add]

/-- Every neighbour sum is a real number when every entry of `x` is. -/
theorem aggK_real (x : FVec Ideal S50000x128 .f32) (e : IVec S2x800000 32) (hx : ∀ i, ∃ r : ℝ, x i = (r : EReal)) :
    ∀ i, ∃ r : ℝ, aggK x e i = (r : EReal) := by
  unfold aggK
  refine scatterAdd_real _ _ _ _ (fun i => ⟨0, ?_⟩) (fun j => hx _)
  show Ideal.ofBits .f32 0x00000000#32 = ((0 : ℝ) : EReal)
  rw [Ideal.ofBits_zero_f32, EReal.coe_zero]

/-- The reference program's neighbour sums are the same function. -/
theorem aggK_eq_ref (x : FVec Ideal S50000x128 .f32) (e : IVec S2x800000 32) :
    aggK x e = Cert.ReferenceIdeal.Read.val_main_v13 (F := Ideal) x e := by
  rfl

end Cert.KernelIdeal.NeighbourSum

end
-- ==== Proof.Finite.lean ====
/-
  What the precondition says: every entry of every float argument is a real number.

  The precondition compares the absolute value of each entry with +∞ and takes the conjunction over all entries and
  all arguments.  On the extended reals `|v| < +∞` holds exactly when `v` is neither infinity, that is, when `v` is
  a real number.
-/
import proofs.«112405_j24120536334768_1_alg».proof.Pre_finite_inputs
import proofs.«112405_j24120536334768_1_alg».proof.Proof.Gen.Pre_finite_inputs
import Idealize.ShloMosaic.PureOps.Ideal
import Idealize.ShloMosaic.Lib.ReduceAll

noncomputable section

open Idealize.ShloMosaic

namespace Cert.Pre_finite_inputs.Real

open Cert.Pre_finite_inputs

/-- The scalar shape has one index. -/
instance subsingleton_scalar_idx : Subsingleton S_.Idx := ⟨fun a b => funext fun d => d.elim0⟩

/-- The word the precondition compares against is `+∞`. -/
theorem inf_word : Ideal.ofBits .f32 0x7F800000#32 = (⊤ : EReal) := by
  simp [Ideal.ofBits, Ideal.ieee]

/-- An extended real whose absolute value `max v (-v)` lies strictly below `+∞` is a real number. -/
theorem real_of_abs_lt (v : EReal) (h : Ideal.cmp .olt (max v (-v)) (Ideal.ofBits .f32 0x7F800000#32) = 1#1) :
    ∃ r : ℝ, v = (r : EReal) := by
  rw [inf_word] at h
  induction v using EReal.rec with
  | bot => exact absurd h (by simp [Ideal.cmp])
  | coe r => exact ⟨r, rfl⟩
  | top => exact absurd h (by simp [Ideal.cmp])

/-- One conjunct of the precondition: when the conjunction over all entries of `|x| < +∞` holds, every entry of `x`
    is a real number. -/
theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant S_ .f32 0x7F800000#32)))
      (constantI S_ 1 1#1) hr hu (fun a => a.elim0) = 1#1) :
    ∀ i, ∃ r : ℝ, x i = (r : EReal) := by
  intro i
  have hi := Host.reduce_andi_all _ _ hr hu _ h i
  exact real_of_abs_lt (x i) hi

/-- Under the precondition the five arguments the dense layers read hold real numbers only. -/
theorem real_of_pre (x : FVec Ideal S50000x128 .f32) (e : IVec S2x800000 32) (Wl : FVec Ideal S128x128 .f32)
    (bl : FVec Ideal S128 .f32) (Wr : FVec Ideal S128x128 .f32) (br g b : FVec Ideal S128 .f32)
    (h : fn (F := Ideal) x e Wl bl Wr br g b = fun _ => 1#1) :
    (∀ i, ∃ r : ℝ, x i = (r : EReal)) ∧ (∀ i, ∃ r : ℝ, Wl i = (r : EReal)) ∧ (∀ i, ∃ r : ℝ, bl i = (r : EReal))
      ∧ (∀ i, ∃ r : ℝ, Wr i = (r : EReal)) ∧ (∀ i, ∃ r : ℝ, br i = (r : EReal)) := by
  have h0 := congrFun h (fun a => a.elim0)
  dsimp only [fn, fn_part1, Idealize.ShloMosaic.andi] at h0
  obtain ⟨h1, -⟩ := IntOp.andi_eq_one.1 h0
  obtain ⟨h2, -⟩ := IntOp.andi_eq_one.1 h1
  obtain ⟨h3, hbr⟩ := IntOp.andi_eq_one.1 h2
  obtain ⟨h4, hWr⟩ := IntOp.andi_eq_one.1 h3
  obtain ⟨h5, hbl⟩ := IntOp.andi_eq_one.1 h4
  obtain ⟨hx, hWl⟩ := IntOp.andi_eq_one.1 h5
  exact ⟨all_real _ _ _ x hx, all_real _ _ _ Wl hWl, all_real _ _ _ bl hbl, all_real _ _ _ Wr hWr,
    all_real _ _ _ br hbr⟩

end Cert.Pre_finite_inputs.Real

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.RefValue.lean ====
/-
  The reference program's result, index by index, is the normalised output with the variance written as the mean
  of the squared deviations.
-/
import proofs.«112405_j24120536334768_1_alg».proof.Proof.Gen.ReferenceIdeal.Read
import proofs.«112405_j24120536334768_1_alg».proof.Proof.BatchNorm
import proofs.«112405_j24120536334768_1_alg».proof.Proof.LibRowOps

noncomputable section

open Idealize.ShloMosaic Idealize.ShloMosaic.ValueIdx

namespace Cert.ReferenceIdeal.RefValue

open Cert.ReferenceIdeal Cert.ReferenceIdeal.Read

/-- The activations as the reference computes them: the neighbour sums are its own scatter-add stage. -/
def hR (x : FVec Ideal S50000x128 .f32) (e : IVec S2x800000 32) (Wl : FVec Ideal S128x128 .f32) (bl : FVec Ideal S128 .f32)
    (Wr : FVec Ideal S128x128 .f32) (br : FVec Ideal S128 .f32) : Fin 50000 → Fin 128 → EReal :=
  SageBN.hid (fun n k => val_main_v13 (F := Ideal) x e (ix2 n k)) (fun n k => x (ix2 n k)) (fun j k => Wl (ix2 j k))
    (fun j k => Wr (ix2 j k)) (fun j => bl (ix1 j)) (fun j => br (ix1 j))

/-- The reference's positive-part stage at row `n`, column `j` is the activation: two dense layers' sums with their
    biases, against the zero word. -/
theorem relu_at (x : FVec Ideal S50000x128 .f32) (e : IVec S2x800000 32) (Wl : FVec Ideal S128x128 .f32)
    (bl : FVec Ideal S128 .f32) (Wr : FVec Ideal S128x128 .f32) (br : FVec Ideal S128 .f32) (n : Fin 50000) (j : Fin 128) :
    val_main_v23 (F := Ideal) x e Wl bl Wr br (ix2 n j) = hR x e Wl bl Wr br n j := by
  have el : ∀ k : Fin 128, lidx_main_v14 (ix2 n j) k = ix2 n k := fun k =>
    funext fun a => Fin.ext (by match a with | ⟨0, _⟩ => rfl | ⟨1, _⟩ => rfl)
  have er : ∀ k : Fin 128, ridx_main_v14 (ix2 n j) k = ix2 j k := fun k =>
    funext fun a => Fin.ext (by match a with | ⟨0, _⟩ => rfl | ⟨1, _⟩ => rfl)
  have el' : ∀ k : Fin 128, lidx_main_v18 (ix2 n j) k = ix2 n k := fun k =>
    funext fun a => Fin.ext (by match a with | ⟨0, _⟩ => rfl | ⟨1, _⟩ => rfl)
  have er' : ∀ k : Fin 128, ridx_main_v18 (ix2 n j) k = ix2 j k := fun k =>
    funext fun a => Fin.ext (by match a with | ⟨0, _⟩ => rfl | ⟨1, _⟩ => rfl)
  have eb : idx_main_v15 (idx_main_v16 (ix2 n j)) = ix1 j :=
    funext fun a => Fin.ext (by match a with | ⟨0, _⟩ => rfl)
  have eb' : idx_main_v20 (idx_main_v21 (ix2 n j)) = ix1 j :=
    funext fun a => Fin.ext (by match a with | ⟨0, _⟩ => rfl)
  rw [val_main_v23_apply, val_main_v22_apply, val_main_v19_apply, val_main_v17_apply, val_main_v14_apply,
    val_main_v16_apply, val_main_v15_apply, val_main_v18_apply, val_main_v21_apply, val_main_v20_apply,
    val_main_call0_v0_apply, val_main_call0_cst_apply]
  simp only [el, er, el', er', eb, eb', Ideal.addf_def, Ideal.maximumf_def, Ideal.ofBits_def]
  rfl

/-- The reference's mean stage at column `j`: the column's sum over the rows, from the zero word, divided by the row count. -/
theorem mean_at (x : FVec Ideal S50000x128 .f32) (e : IVec S2x800000 32) (Wl : FVec Ideal S128x128 .f32)
    (bl : FVec Ideal S128 .f32) (Wr : FVec Ideal S128x128 .f32) (br : FVec Ideal S128 .f32) (j : Fin 128) :
    val_main_v26 (F := Ideal) x e Wl bl Wr br (ix1 j) = SageBN.colMean (hR x e Wl bl Wr br) j := by
  have ek : ∀ k : Fin 50000, idx_main_v24 (ix1 j) k = ix2 k j := fun k =>
    funext fun a => Fin.ext (by match a with | ⟨0, _⟩ => rfl | ⟨1, _⟩ => rfl)
  rw [val_main_v26_apply, val_main_v24_apply, val_main_v25_apply, val_main_cst_1_apply, val_main_cst_2_apply]
  simp only [ek, relu_at, Ideal.hostDivf_def, Ideal.ofBits_def, Ideal.ofBits_zero_f32, zero_add]
  unfold SageBN.colMean
  rfl

/-- The deviation stage the variance is taken of, at row `n`, column `j`: the activation less its column's mean. -/
theorem dev_at (x : FVec Ideal S50000x128 .f32) (e : IVec S2x800000 32) (Wl : FVec Ideal S128x128 .f32)
    (bl : FVec Ideal S128 .f32) (Wr : FVec Ideal S128x128 .f32) (br : FVec Ideal S128 .f32) (n : Fin 50000) (j : Fin 128) :
    val_main_v29 (F := Ideal) x e Wl bl Wr br (ix2 n j)
      = hR x e Wl bl Wr br n j - SageBN.colMean (hR x e Wl bl Wr br) j := by
  have em : idx_main_v27 (idx_main_v28 (ix2 n j)) = ix1 j :=
    funext fun a => Fin.ext (by match a with | ⟨0, _⟩ => rfl)
  rw [val_main_v29_apply, val_main_v28_apply, val_main_v27_apply, em, relu_at, mean_at]
  exact Ideal.subf_def _ _

/-- The deviation stage the output is scaled from, at row `n`, column `j`: the same difference. -/
theorem dev_out_at (x : FVec Ideal S50000x128 .f32) (e : IVec S2x800000 32) (Wl : FVec Ideal S128x128 .f32)
    (bl : FVec Ideal S128 .f32) (Wr : FVec Ideal S128x128 .f32) (br : FVec Ideal S128 .f32) (n : Fin 50000) (j : Fin 128) :
    val_main_v36 (F := Ideal) x e Wl bl Wr br (ix2 n j)
      = hR x e Wl bl Wr br n j - SageBN.colMean (hR x e Wl bl Wr br) j := by
  have em : idx_main_v34 (idx_main_v35 (ix2 n j)) = ix1 j :=
    funext fun a => Fin.ext (by match a with | ⟨0, _⟩ => rfl)
  rw [val_main_v36_apply, val_main_v35_apply, val_main_v34_apply, em, relu_at, mean_at]
  exact Ideal.subf_def _ _

/-- The reference's variance stage at column `j`: the mean of the squared deviations. -/
theorem var_at (x : FVec Ideal S50000x128 .f32) (e : IVec S2x800000 32) (Wl : FVec Ideal S128x128 .f32)
    (bl : FVec Ideal S128 .f32) (Wr : FVec Ideal S128x128 .f32) (br : FVec Ideal S128 .f32) (j : Fin 128) :
    val_main_v33 (F := Ideal) x e Wl bl Wr br (ix1 j) = SageBN.varR (hR x e Wl bl Wr br) j := by
  have ek : ∀ k : Fin 50000, idx_main_v31 (ix1 j) k = ix2 k j := fun k =>
    funext fun a => Fin.ext (by match a with | ⟨0, _⟩ => rfl | ⟨1, _⟩ => rfl)
  have es : ∀ k : Fin 50000, val_main_v30 (F := Ideal) x e Wl bl Wr br (idx_main_v31 (ix1 j) k)
      = (hR x e Wl bl Wr br k j - SageBN.colMean (hR x e Wl bl Wr br) j)
        * (hR x e Wl bl Wr br k j - SageBN.colMean (hR x e Wl bl Wr br) j) := by
    intro k
    rw [ek, val_main_v30_apply, dev_at]
    exact Ideal.mulf_def _ _
  rw [val_main_v33_apply, val_main_v31_apply, val_main_v32_apply, val_main_cst_3_apply, val_main_cst_4_apply,
    Finset.sum_congr rfl (fun k _ => es k), Ideal.hostDivf_def, Ideal.ofBits_def, Ideal.ofBits_def, Ideal.ofBits_zero_f32,
    zero_add]
  unfold SageBN.varR
  rfl

/-- The reference's last stage is the normalised output of its activations, the variance in its deviation form. -/
theorem result_eq (x : FVec Ideal S50000x128 .f32) (e : IVec S2x800000 32) (Wl : FVec Ideal S128x128 .f32)
    (bl : FVec Ideal S128 .f32) (Wr : FVec Ideal S128x128 .f32) (br g b : FVec Ideal S128 .f32) :
    val_main_v48 (F := Ideal) x e Wl bl Wr br g b
      = SageBN.arr2 (SageBN.norm (fun j => g (ix1 j)) (fun j => b (ix1 j)) (hR x e Wl bl Wr br) (SageBN.varR (hR x e Wl bl Wr br))) := by
  funext i
  obtain ⟨n, j, rfl⟩ : ∃ (n : Fin 50000) (j : Fin 128), i = ix2 n j := ⟨i 0, i 1, eq_ix2 i⟩
  have eg : idx_main_v37 (idx_main_v38 (ix2 n j)) = ix1 j :=
    funext fun a => Fin.ext (by match a with | ⟨0, _⟩ => rfl)
  have ev : idx_main_v43 (idx_main_v44 (ix2 n j)) = ix1 j :=
    funext fun a => Fin.ext (by match a with | ⟨0, _⟩ => rfl)
  have eo : idx_main_v46 (idx_main_v47 (ix2 n j)) = ix1 j :=
    funext fun a => Fin.ext (by match a with | ⟨0, _⟩ => rfl)
  rw [SageBN.arr2_ix2, val_main_v48_apply, val_main_v45_apply, val_main_v47_apply, val_main_v46_apply, eo,
    val_main_v39_apply, val_main_v38_apply, val_main_v37_apply, eg, dev_out_at, val_main_v44_apply, val_main_v43_apply, ev,
    val_main_v42_apply, val_main_v41_apply, var_at, val_main_v40_apply, val_main_cst_5_apply]
  unfold SageBN.norm
  simp only [Ideal.addf_def, Ideal.mulf_def, Ideal.hostUnary_rsqrt_def, Ideal.ofBits_def]

end Cert.ReferenceIdeal.RefValue

end
-- ==== Proof.HostGlue.lean ====
/-
  What the host operations around the two kernels compute.

  Before the first kernel: the neighbour sums, the two weight matrices transposed, the two bias vectors as one row each.
  Between the kernels: the column means (the first kernel's column sums over the row count), the inverse root of the
  variance plus the small constant (the variance as the mean of squares less the squared mean), the gain and the
  offset as one row each; the first kernel's activations pass through untouched.
-/
import proofs.«112405_j24120536334768_1_alg».proof.Proof.Gen.KernelIdeal.Frame
import proofs.«112405_j24120536334768_1_alg».proof.Proof.BatchNorm
import proofs.«112405_j24120536334768_1_alg».proof.Proof.NeighbourSum
import Idealize.ShloMosaic.Lib.Pipeline.Value
import Idealize.ShloMosaic.Lib.StableHlo.Run
import Idealize.ShloMosaic.Lib.ValueIdx
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HostGlue

open Cert.KernelIdeal Cert.KernelIdeal.Gen Cert.KernelIdeal.NeighbourSum

variable (m : (ℓ : Loc nD τ sig) → Buf (Elt Ideal) ℓ) (ρ : Dev nD → PrngReg)

/-- The arguments as launched, by their literal types. -/
abbrev xM (c : Dev nD) : FVec Ideal S50000x128 .f32 := m ((c : Thread nD τ).loc main_arg0)
abbrev eM (c : Dev nD) : IVec S2x800000 32 := m ((c : Thread nD τ).loc main_arg1)
abbrev wlM (c : Dev nD) : FVec Ideal S128x128 .f32 := m ((c : Thread nD τ).loc main_arg2)
abbrev blM (c : Dev nD) : FVec Ideal S128 .f32 := m ((c : Thread nD τ).loc main_arg3)
abbrev wrM (c : Dev nD) : FVec Ideal S128x128 .f32 := m ((c : Thread nD τ).loc main_arg4)
abbrev brM (c : Dev nD) : FVec Ideal S128 .f32 := m ((c : Thread nD τ).loc main_arg5)
abbrev gM (c : Dev nD) : FVec Ideal S128 .f32 := m ((c : Thread nD τ).loc main_arg6)
abbrev bM (c : Dev nD) : FVec Ideal S128 .f32 := m ((c : Thread nD τ).loc main_arg7)

/-- The first kernel's arrays as it finds them (the contents `Gen.V1` after the first host stretch). -/
abbrev x1 (c : Dev nD) : FVec Ideal S50000x128 .f32 := V1 m ρ c main_arg0
abbrev agg1 (c : Dev nD) : FVec Ideal S50000x128 .f32 := V1 m ρ c main_v13
abbrev wl1 (c : Dev nD) : FVec Ideal S128x128 .f32 := V1 m ρ c main_v14
abbrev wr1 (c : Dev nD) : FVec Ideal S128x128 .f32 := V1 m ρ c main_v15
abbrev bl1 (c : Dev nD) : FVec Ideal S1x128 .f32 := V1 m ρ c main_v16
abbrev br1 (c : Dev nD) : FVec Ideal S1x128 .f32 := V1 m ρ c main_v17

/-- No operation of the first host stretch writes the features. -/
theorem x1_eq (c : Dev nD) : x1 m ρ c = xM m c := by
  show StableHlo.after hostOps0 (W0 m ρ c) (Proc.devRef .tc main_arg0) = _
  simp only [hostOps0]
  after_results
/-- The seventeenth operation's result is the scatter-add of the gathered rows into zeros: the neighbour sums. -/
theorem agg1_eq (c : Dev nD) : agg1 m ρ c = aggK (xM m c) (eM m c) := by
  show StableHlo.after hostOps0 (W0 m ρ c) (Proc.devRef .tc main_v13) = _
  simp only [hostOps0]
  after_results
  unfold Cert.KernelIdeal.NeighbourSum.aggK
  rfl
/-- The two weight matrices reach the first kernel transposed. -/
theorem wl1_eq (c : Dev nD) :
    wl1 m ρ c = transpose S128x128 [1, 0] (wlM m c) transposes_S128x128_S128x128_1_0 := by
  show StableHlo.after hostOps0 (W0 m ρ c) (Proc.devRef .tc main_v14) = _
  simp only [hostOps0]
  after_results
theorem wr1_eq (c : Dev nD) :
    wr1 m ρ c = transpose S128x128 [1, 0] (wrM m c) transposes_S128x128_S128x128_1_0 := by
  show StableHlo.after hostOps0 (W0 m ρ c) (Proc.devRef .tc main_v15) = _
  simp only [hostOps0]
  after_results

theorem wl1_apply (c : Dev nD) (k j : Fin 128) : wl1 m ρ c (ix2 k j) = wlM m c (ix2 j k) := by
  rw [wl1_eq]; exact transpose_ix2_apply _ _ k j
theorem wr1_apply (c : Dev nD) (k j : Fin 128) : wr1 m ρ c (ix2 k j) = wrM m c (ix2 j k) := by
  rw [wr1_eq]; exact transpose_ix2_apply _ _ k j
/-- The two bias vectors reach the first kernel as one row each. -/
theorem bl1_eq (c : Dev nD) : bl1 m ρ c = shapeCast S1x128 (blM m c) shapeCasts_S128_S1x128 := by
  show StableHlo.after hostOps0 (W0 m ρ c) (Proc.devRef .tc main_v16) = _
  simp only [hostOps0]
  after_results
  rfl
theorem br1_eq (c : Dev nD) : br1 m ρ c = shapeCast S1x128 (brM m c) shapeCasts_S128_S1x128 := by
  show StableHlo.after hostOps0 (W0 m ρ c) (Proc.devRef .tc main_v17) = _
  simp only [hostOps0]
  after_results
  rfl

theorem bl1_apply (c : Dev nD) (j : Fin 128) : bl1 m ρ c (ix2 (0 : Fin 1) j) = blM m c (ix1 j) := by
  rw [bl1_eq]; exact shapeCast_a_1a_apply _ _ 0 j
theorem br1_apply (c : Dev nD) (j : Fin 128) : br1 m ρ c (ix2 (0 : Fin 1) j) = brM m c (ix1 j) := by
  rw [br1_eq]; exact shapeCast_a_1a_apply _ _ 0 j

/-- The first kernel's three result arrays after it (the write-backs folded). -/
abbrev hOut (c : Dev nD) : FVec Ideal S50000x128 .f32 := (dat0 (F := Ideal) (V1 m ρ) c).arrAt 6 cfg0.N
abbrev sOut (c : Dev nD) : FVec Ideal S1x128 .f32 := (dat0 (F := Ideal) (V1 m ρ) c).arrAt 7 cfg0.N
abbrev qOut (c : Dev nD) : FVec Ideal S1x128 .f32 := (dat0 (F := Ideal) (V1 m ρ) c).arrAt 8 cfg0.N

/-- The second kernel's arrays as it finds them (the contents `Gen.V3` after the second host stretch). -/
abbrev h3 (c : Dev nD) : FVec Ideal S50000x128 .f32 := V3 m ρ c main_v18_0
abbrev g3 (c : Dev nD) : FVec Ideal S1x128 .f32 := V3 m ρ c main_v28
abbrev b3 (c : Dev nD) : FVec Ideal S1x128 .f32 := V3 m ρ c main_v29
abbrev mu3 (c : Dev nD) : FVec Ideal S1x128 .f32 := V3 m ρ c main_v20
abbrev is3 (c : Dev nD) : FVec Ideal S1x128 .f32 := V3 m ρ c main_v27

/-- The host's inverse square root at an index is the inverse square root of the element. -/
theorem hostRsqrt_apply {s : Shape} {φ : FTy} (a : FVec Ideal s φ) (i : s.Idx) :
    Host.rsqrt a i = Ideal.rsqrt (a i) := rfl

/-- The first kernel's three result arrays, as the second host stretch finds them. -/
theorem W2_h (c : Dev nD) : W2 m ρ c (Proc.devRef .tc main_v18_0) = hOut m ρ c := W2_arr m ρ c 6
theorem W2_s (c : Dev nD) : W2 m ρ c (Proc.devRef .tc main_v18_1) = sOut m ρ c := W2_arr m ρ c 7
theorem W2_q (c : Dev nD) : W2 m ρ c (Proc.devRef .tc main_v18_2) = qOut m ρ c := W2_arr m ρ c 8

/-- The gain and the offset reach the second host stretch as launched: the first stretch and the first kernel
    write neither. -/
theorem W2_g (c : Dev nD) : W2 m ρ c (Proc.devRef .tc main_arg6) = gM m c := by
  rw [W2_of_ne m ρ c main_arg6 (by decide)]
  show StableHlo.after hostOps0 (W0 m ρ c) (Proc.devRef .tc main_arg6) = _
  simp only [hostOps0]
  after_results
theorem W2_b (c : Dev nD) : W2 m ρ c (Proc.devRef .tc main_arg7) = bM m c := by
  rw [W2_of_ne m ρ c main_arg7 (by decide)]
  show StableHlo.after hostOps0 (W0 m ρ c) (Proc.devRef .tc main_arg7) = _
  simp only [hostOps0]
  after_results

/-- No operation of the second host stretch writes the first kernel's activations. -/
theorem h3_eq (c : Dev nD) : h3 m ρ c = hOut m ρ c := by
  show StableHlo.after hostOps1 (W2 m ρ c) (Proc.devRef .tc main_v18_0) = _
  simp only [hostOps1]
  after_results
  exact W2_h m ρ c
/-- The row count as one row reads the row count everywhere, and the small constant likewise. -/
theorem cnt_apply (i : S1x128.Idx) : ((broadcastInDim S1x128 ![] bcast_S_S1x128 (constant (F := Ideal) S_ .f32 0x47435000#32)) : FVec Ideal S1x128 .f32) i = SageBN.cntW := by
  rw [broadcastInDim_scalar_apply, constant_apply]
theorem eps_apply (i : S1x128.Idx) : ((broadcastInDim S1x128 ![] bcast_S_S1x128 (constant (F := Ideal) S_ .f32 0x3727C5AC#32)) : FVec Ideal S1x128 .f32) i = SageBN.epsW := by
  rw [broadcastInDim_scalar_apply, constant_apply]

/-- The column means: the first kernel's column sums over the row count. -/
theorem mu3_eq (c : Dev nD) : mu3 m ρ c = Host.divf (sOut m ρ c) (broadcastInDim S1x128 ![] bcast_S_S1x128 (constant (F := Ideal) S_ .f32 0x47435000#32)) := by
  show StableHlo.after hostOps1 (W2 m ρ c) (Proc.devRef .tc main_v20) = _
  simp only [hostOps1]
  after_results
  rw [W2_s]

theorem mu3_apply (c : Dev nD) (j : Fin 128) :
    mu3 m ρ c (ix2 (0 : Fin 1) j) = Ideal.div (sOut m ρ c (ix2 (0 : Fin 1) j)) SageBN.cntW := by
  rw [mu3_eq, hostDivf_apply, cnt_apply]
/-- The inverse root of the variance plus the small constant, the variance as the mean of squares less the squared
    mean. -/
theorem is3_eq (c : Dev nD) :
    is3 m ρ c = Host.rsqrt (addf (subf (Host.divf (qOut m ρ c) (broadcastInDim S1x128 ![] bcast_S_S1x128 (constant (F := Ideal) S_ .f32 0x47435000#32)))
      (mulf (mu3 m ρ c) (mu3 m ρ c))) (broadcastInDim S1x128 ![] bcast_S_S1x128 (constant (F := Ideal) S_ .f32 0x3727C5AC#32))) := by
  rw [mu3_eq]
  show StableHlo.after hostOps1 (W2 m ρ c) (Proc.devRef .tc main_v27) = _
  simp only [hostOps1]
  after_results
  rw [W2_s, W2_q]

theorem is3_apply (c : Dev nD) (j : Fin 128) :
    is3 m ρ c (ix2 (0 : Fin 1) j)
      = Ideal.rsqrt ((Ideal.div (qOut m ρ c (ix2 (0 : Fin 1) j)) SageBN.cntW
          - mu3 m ρ c (ix2 (0 : Fin 1) j) * mu3 m ρ c (ix2 (0 : Fin 1) j)) + SageBN.epsW) := by
  rw [is3_eq, hostRsqrt_apply, addf_apply, subf_apply, hostDivf_apply, mulf_apply, cnt_apply, eps_apply]
/-- The gain and the offset reach the second kernel as one row each. -/
theorem g3_eq (c : Dev nD) : g3 m ρ c = shapeCast S1x128 (gM m c) shapeCasts_S128_S1x128 := by
  show StableHlo.after hostOps1 (W2 m ρ c) (Proc.devRef .tc main_v28) = _
  simp only [hostOps1]
  after_results
  rw [W2_g]
  rfl
theorem b3_eq (c : Dev nD) : b3 m ρ c = shapeCast S1x128 (bM m c) shapeCasts_S128_S1x128 := by
  show StableHlo.after hostOps1 (W2 m ρ c) (Proc.devRef .tc main_v29) = _
  simp only [hostOps1]
  after_results
  rw [W2_b]
  rfl

theorem g3_apply (c : Dev nD) (j : Fin 128) : g3 m ρ c (ix2 (0 : Fin 1) j) = gM m c (ix1 j) := by
  rw [g3_eq]; exact shapeCast_a_1a_apply _ _ 0 j
theorem b3_apply (c : Dev nD) (j : Fin 128) : b3 m ρ c (ix2 (0 : Fin 1) j) = bM m c (ix1 j) := by
  rw [b3_eq]; exact shapeCast_a_1a_apply _ _ 0 j

end Cert.KernelIdeal.HostGlue

end
-- ==== Proof.StageOneBody.lean ====
/-
  The first kernel's arithmetic on one block of 5000 rows, read at an index.

  The body computes the block's activations `max (agg·WlT + bl + x·WrT + br) 0` (the weights arrive transposed, so
  entry `(k, j)` of a weight block is the weight from input `k` to output `j`), adds each column's sum over the
  block's rows to a running row of column sums, and likewise each column's sum of squares.
-/
import proofs.«112405_j24120536334768_1_alg».proof.Proof.Gen.KernelIdeal.Skeleton
import proofs.«112405_j24120536334768_1_alg».proof.Proof.BatchNorm
import proofs.«112405_j24120536334768_1_alg».proof.Proof.LibRowOps
import Idealize.ShloMosaic.PureOps.Ideal.Laws
import Idealize.ShloMosaic.Lib.ValueLayout

noncomputable section

open Idealize.ShloMosaic Idealize.ShloMosaic.ValueIdx

namespace Cert.KernelIdeal.StageOneBody

open Cert.KernelIdeal Cert.KernelIdeal.Gen

/-- One block's activations at row `r`, column `j`. -/
def hBlk (agg x : FVec Ideal S5000x128 .f32) (wl wr : FVec Ideal S128x128 .f32) (bl br : FVec Ideal S1x128 .f32)
    (r : Fin 5000) (j : Fin 128) : EReal :=
  max ((((∑ k : Fin 128, agg (ix2 r k) * wl (ix2 k j)) + bl (ix2 (0 : Fin 1) j)) + (∑ k : Fin 128, x (ix2 r k) * wr (ix2 k j)))
    + br (ix2 (0 : Fin 1) j)) SageBN.zeroW

/-- The contraction record the body's two products carry is the plain rows-by-columns one. -/
theorem dot_plain : dot_S5000x128_S128x128_S5000x128_1_0_0_1_n_n = DotDims.plain 5000 128 128 := rfl

/-- A narrowed block times a narrowed weight block, into the zero splat, at `(r, j)`: row `r` against column `j`.
    Narrowing changes no extended real, and a cast to the same shape (`a' = a`, `w' = w`) changes nothing. -/
theorem mm_apply (a a' : FVec Ideal S5000x128 .f32) (ha : a' = a) (w w' : FVec Ideal S128x128 .f32) (hw : w' = w)
    (hb : FTy.bf16.bits < FTy.f32.bits) (r : Fin 5000) (j : Fin 128) :
    matmul dot_S5000x128_S128x128_S5000x128_1_0_0_1_n_n none (truncf .bf16 a' hb) (truncf .bf16 w' hb)
        (constant S5000x128 .f32 0x00000000#32) (ix2 r j)
      = ∑ k : Fin 128, a (ix2 r k) * w (ix2 k j) := by
  subst ha hw
  exact RowOps.matmul_plain_apply _ dot_plain none _ _ r j

/-- A bias row, cast to its own shape and broadcast down the rows, at `(r, j)`: the row's entry in column `j`. -/
theorem bias_apply (b : FVec Ideal S1x128 .f32) (hsc : S1x128.ShapeCasts S1x128) (hbc : S1x128.Broadcasts S5000x128)
    (r : Fin 5000) (j : Fin 128) :
    broadcastTo S5000x128 (shapeCast S1x128 b hsc) hbc (ix2 r j) = b (ix2 (0 : Fin 1) j) := by
  rw [shapeCast_self]
  exact broadcastTo_1b_ab_apply b hbc r j

/-- The stored activations block at an index. -/
theorem pay4_apply (agg x : FVec Ideal S5000x128 .f32) (wl wr : FVec Ideal S128x128 .f32) (bl br : FVec Ideal S1x128 .f32)
    (r : Fin 5000) (j : Fin 128) : k0_pay4 (F := Ideal) agg x wl wr bl br (ix2 r j) = hBlk agg x wl wr bl br r j := by
  unfold k0_pay4 hBlk
  refine congrArg₂ max (congrArg₂ (· + ·) (congrArg₂ (· + ·) (congrArg₂ (· + ·) ?_ ?_) ?_) ?_) rfl
  · exact mm_apply agg _ (shapeCast_self _ _) wl _ (shapeCast_self _ _) _ r j
  · exact bias_apply bl _ _ r j
  · exact mm_apply x _ rfl wr _ (shapeCast_self _ _) _ r j
  · exact bias_apply br _ _ r j

/-- The reduced index `j` with row `k` put back on the dropped axis is `(k, j)`. -/
theorem lift_row (h : S5000x128.Reduces [0] S128) (j : Fin 128) (k : Fin (S5000x128.size 0)) :
    h.lift (ix1 j) k = ix2 (⟨k.val, k.isLt⟩ : Fin 5000) j := by
  funext a
  apply Fin.ext
  match a with
  | ⟨0, _⟩ => rfl
  | ⟨1, _⟩ => rfl

/-- A block's sum down its rows, cast to one row, at column `j`: the column's sum over the 5000 rows. -/
theorem colsum_apply (v : FVec Ideal S5000x128 .f32) (h : S5000x128.Reduces [0] S128) (hφ : FKind.Formats .f32)
    (hacc : (0x00000000#32 : BitVec 32) = FKind.add.neutral .f32 hφ) (hsc : S128.ShapeCasts S1x128) (j : Fin 128) :
    shapeCast S1x128 (multiReduction (F := Ideal) .add [0] S128 v 0x00000000#32 h hφ hacc) hsc (ix2 (0 : Fin 1) j)
      = ∑ r : Fin 5000, v (ix2 r j) := by
  refine (shapeCast_a_1a_apply _ hsc 0 j).trans ?_
  refine (Ideal.multiReduction_add_single v _ h hφ hacc (ix1 j)).trans ?_
  exact Finset.sum_congr rfl fun k _ => congrArg v (lift_row h j k)

/-- The running column sums after the body: what was there plus this block's column sums. -/
theorem pay5_apply (agg x : FVec Ideal S5000x128 .f32) (wl wr : FVec Ideal S128x128 .f32) (bl br : FVec Ideal S1x128 .f32)
    (prev : FVec Ideal S1x128 .f32) (j : Fin 128) :
    k0_pay5 (F := Ideal) agg x wl wr bl br prev (ix2 (0 : Fin 1) j)
      = prev (ix2 (0 : Fin 1) j) + ∑ r : Fin 5000, hBlk agg x wl wr bl br r j := by
  unfold k0_pay5
  refine congrArg₂ (· + ·) (congrFun (shapeCast_self prev _) _) ?_
  refine (colsum_apply (k0_pay4 agg x wl wr bl br) _ _ _ _ j).trans ?_
  exact Finset.sum_congr rfl fun r _ => pay4_apply agg x wl wr bl br r j

/-- The running column sums of squares after the body. -/
theorem pay1_apply (v : FVec Ideal S5000x128 .f32) (prev : FVec Ideal S1x128 .f32) (j : Fin 128) :
    k0_pay1 (F := Ideal) v prev (ix2 (0 : Fin 1) j) = prev (ix2 (0 : Fin 1) j) + ∑ r : Fin 5000, v (ix2 r j) * v (ix2 r j) := by
  unfold k0_pay1
  refine congrArg₂ (· + ·) (congrFun (shapeCast_self prev _) _) ?_
  exact colsum_apply (mulf v v) _ _ _ _ j

/-- The two rows the first grid point resets hold the zero word. -/
theorem pay2_apply (i : S1x128.Idx) : k0_pay2 (F := Ideal) i = SageBN.zeroW := by
  rfl
theorem pay3_apply (i : S1x128.Idx) : k0_pay3 (F := Ideal) i = SageBN.zeroW := by
  rfl

/-- The zero word is the extended real zero. -/
theorem zeroW_eq : SageBN.zeroW = 0 := by
  exact Ideal.ofBits_zero_f32

/-- Block number `t` and row `r` inside the block, against the row number `5000 t + r`: quotient and remainder by 5000
    go back. -/
def blockEquiv : Fin 10 × Fin 5000 ≃ Fin 50000 where
  toFun p := ⟨5000 * p.1.val + p.2.val, by have := p.1.isLt; have := p.2.isLt; omega⟩
  invFun n := (⟨n.val / 5000, by have := n.isLt; omega⟩, ⟨n.val % 5000, by omega⟩)
  left_inv p := by
    have h1 := p.1.isLt
    have h2 := p.2.isLt
    refine Prod.ext (Fin.ext ?_) (Fin.ext ?_)
    · show (5000 * p.1.val + p.2.val) / 5000 = p.1.val
      omega
    · show (5000 * p.1.val + p.2.val) % 5000 = p.2.val
      omega
  right_inv n := Fin.ext (by
    show 5000 * (n.val / 5000) + n.val % 5000 = n.val
    omega)

/-- Ten blocks of 5000 rows are all 50000 rows, each once. -/
theorem sum_blocks (f : Fin 50000 → EReal) :
    (∑ t : Fin 10, ∑ r : Fin 5000, f ⟨5000 * t.val + r.val, by have := t.isLt; have := r.isLt; omega⟩) = ∑ n : Fin 50000, f n := by
  rw [← Equiv.sum_comp blockEquiv f, Fintype.sum_prod_type]
  rfl

end Cert.KernelIdeal.StageOneBody

end
-- ==== Proof.StageOnePieces.lean ====
/-
  What the first kernel's body leaves in its three output buffers at one grid point, as values.

  At every point the activations buffer is overwritten with the block's activations.  The two one-row buffers of
  column sums are read and added to; at the first point they are first reset to zero, so there the body leaves
  zero plus the block's sums, and at every later point what the point before left plus the block's sums.
-/
import proofs.«112405_j24120536334768_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.StageOne

open Cert.KernelIdeal Cert.KernelIdeal.Gen

variable {F : FTy → Type} [FloatOps F]

theorem hz : (![0, 0] : Fin 2 → Nat) = fun _ => 0 := funext fun a => by fin_cases a <;> rfl

/-! ## A later point: the running rows are read, not reset -/

theorem outB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_6 c i a1 h1 a2 h2 a3 h3 a4 h4 a5 h5 a6 h6 a7 h7 a8 h8 a9 h9 hc x0 x1 x2 x3 x4 x5 xo7 xo8 = k0_pay4 x1 x0 x2 x4 x3 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem outB7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x1 x0 x2 x4 x3 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem outB8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x1 x0 x2 x4 x3 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

/-! ## The first point: the running rows are reset to zero first -/

theorem outA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x1 x0 x2 x4 x3 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem outA7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x1 x0 x2 x4 x3 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

theorem outA8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x1 x0 x2 x4 x3 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h8.read_unread, h9.read_unread, View.ld_unit_zero (S := S5000x128) hz, View.ld_unit_zero (S := S128x128) hz, View.ld_unit_zero (S := S1x128) hz]

end Cert.KernelIdeal.StageOne

end
-- ==== Proof.StageOne.lean ====
/-
  The first kernel's three result arrays after its ten grid points.

  Point `t` reads rows `5000 t … 5000 t + 4999` of `x` and of the neighbour sums, and the two weight matrices and
  bias rows whole.  It writes those rows' activations to the activations array, and leaves in two one-row buffers the
  running column sums and column sums of squares: zero plus the first block's at point 0, the previous point's plus
  this block's afterwards.  The one-row buffers are written back once, after point 9, so the two small result arrays
  hold the sums over all ten blocks, that is, over all 50000 rows.
-/
import proofs.«112405_j24120536334768_1_alg».proof.Proof.Gen.KernelIdeal.Frame
import proofs.«112405_j24120536334768_1_alg».proof.Proof.BatchNorm
import proofs.«112405_j24120536334768_1_alg».proof.Proof.StageOneBody
import proofs.«112405_j24120536334768_1_alg».proof.Proof.StageOnePieces
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.StageOne

open Cert.KernelIdeal Cert.KernelIdeal.Gen Cert.KernelIdeal.StageOneBody

variable (V : (c : Dev nD) → (b : Ref sig .tc) → Buf (Elt Ideal) ((c : Thread nD τ).loc b))

/-! ## The arrays the kernel finds, and the activations as one function of them -/

abbrev xA (c : Dev nD) : FVec Ideal S50000x128 .f32 := V c main_arg0
abbrev aggA (c : Dev nD) : FVec Ideal S50000x128 .f32 := V c main_v13
abbrev wlA (c : Dev nD) : FVec Ideal S128x128 .f32 := V c main_v14
abbrev blA (c : Dev nD) : FVec Ideal S1x128 .f32 := V c main_v16
abbrev wrA (c : Dev nD) : FVec Ideal S128x128 .f32 := V c main_v15
abbrev brA (c : Dev nD) : FVec Ideal S1x128 .f32 := V c main_v17

/-- The activations of all 50000 rows: the weight arrays arrive transposed, the biases as one row each. -/
def hK (c : Dev nD) : Fin 50000 → Fin 128 → EReal :=
  SageBN.hid (fun n k => aggA V c (ix2 n k)) (fun n k => xA V c (ix2 n k)) (fun j k => wlA V c (ix2 k j)) (fun j k => wrA V c (ix2 k j))
    (fun j => blA V c (ix2 (0 : Fin 1) j)) (fun j => brA V c (ix2 (0 : Fin 1) j))

/-! ## The blocks a grid point reads -/

abbrev xB (c : Dev nD) (t : Fin cfg0.N) : FVec Ideal S5000x128 .f32 := iblk0 V c 0 t
abbrev aggB (c : Dev nD) (t : Fin cfg0.N) : FVec Ideal S5000x128 .f32 := iblk0 V c 1 t
abbrev wlB (c : Dev nD) (t : Fin cfg0.N) : FVec Ideal S128x128 .f32 := iblk0 V c 2 t
abbrev blB (c : Dev nD) (t : Fin cfg0.N) : FVec Ideal S1x128 .f32 := iblk0 V c 3 t
abbrev wrB (c : Dev nD) (t : Fin cfg0.N) : FVec Ideal S128x128 .f32 := iblk0 V c 4 t
abbrev brB (c : Dev nD) (t : Fin cfg0.N) : FVec Ideal S1x128 .f32 := iblk0 V c 5 t

/-- The printed index maps over the ten points: the two row-blocked inputs and the activations output move with the
    point along the rows; every other window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem xB_apply (c : Dev nD) (t : Fin cfg0.N) (r : Fin 5000) (k : Fin 128) :
    xB V c t (ix2 r k) = xA V c (ix2 (⟨5000 * t.val + r.val, by have := t.isLt; have h10 : cfg0.N = 10 := N_0; have := r.isLt; omega⟩ : Fin 50000) k) := by
  have e := idx_facts t
  show V c main_arg0 (((cfg0.win 0).blk t).view.emb (ix2 r k)) = V c main_arg0 _
  refine congrArg (V c main_arg0) (funext fun a => Fin.ext ?_)
  match a with
  | ⟨0, _⟩ => show win0_0.index t (0 : Fin 2) * 5000 + 1 * r.val = 5000 * t.val + r.val; rw [e.1]; omega
  | ⟨1, _⟩ => show win0_0.index t (1 : Fin 2) * 128 + 1 * k.val = k.val; rw [e.2.1]; omega

theorem aggB_apply (c : Dev nD) (t : Fin cfg0.N) (r : Fin 5000) (k : Fin 128) :
    aggB V c t (ix2 r k) = aggA V c (ix2 (⟨5000 * t.val + r.val, by have := t.isLt; have h10 : cfg0.N = 10 := N_0; have := r.isLt; omega⟩ : Fin 50000) k) := by
  have e := idx_facts t
  show V c main_v13 (((cfg0.win 1).blk t).view.emb (ix2 r k)) = V c main_v13 _
  refine congrArg (V c main_v13) (funext fun a => Fin.ext ?_)
  match a with
  | ⟨0, _⟩ => show win0_1.index t (0 : Fin 2) * 5000 + 1 * r.val = 5000 * t.val + r.val; rw [e.2.2.1]; omega
  | ⟨1, _⟩ => show win0_1.index t (1 : Fin 2) * 128 + 1 * k.val = k.val; rw [e.2.2.2.1]; omega

theorem wlB_apply (c : Dev nD) (t : Fin cfg0.N) (k j : Fin 128) : wlB V c t (ix2 k j) = wlA V c (ix2 k j) := by
  have e := idx_facts t
  show V c main_v14 (((cfg0.win 2).blk t).view.emb (ix2 k j)) = V c main_v14 _
  refine congrArg (V c main_v14) (funext fun a => Fin.ext ?_)
  match a with
  | ⟨0, _⟩ => show win0_2.index t (0 : Fin 2) * 128 + 1 * k.val = k.val; rw [e.2.2.2.2.1]; omega
  | ⟨1, _⟩ => show win0_2.index t (1 : Fin 2) * 128 + 1 * j.val = j.val; rw [e.2.2.2.2.2.1]; omega

theorem blB_apply (c : Dev nD) (t : Fin cfg0.N) (j : Fin 128) : blB V c t (ix2 (0 : Fin 1) j) = blA V c (ix2 (0 : Fin 1) j) := by
  have e := idx_facts t
  show V c main_v16 (((cfg0.win 3).blk t).view.emb (ix2 (0 : Fin 1) j)) = V c main_v16 _
  refine congrArg (V c main_v16) (funext fun a => Fin.ext ?_)
  match a with
  | ⟨0, _⟩ => show win0_3.index t (0 : Fin 2) * 1 + 1 * 0 = 0; rw [e.2.2.2.2.2.2.1]
  | ⟨1, _⟩ => show win0_3.index t (1 : Fin 2) * 128 + 1 * j.val = j.val; rw [e.2.2.2.2.2.2.2.1]; omega

theorem wrB_apply (c : Dev nD) (t : Fin cfg0.N) (k j : Fin 128) : wrB V c t (ix2 k j) = wrA V c (ix2 k j) := by
  have e := idx_facts t
  show V c main_v15 (((cfg0.win 4).blk t).view.emb (ix2 k j)) = V c main_v15 _
  refine congrArg (V c main_v15) (funext fun a => Fin.ext ?_)
  match a with
  | ⟨0, _⟩ => show win0_4.index t (0 : Fin 2) * 128 + 1 * k.val = k.val; rw [e.2.2.2.2.2.2.2.2.1]; omega
  | ⟨1, _⟩ => show win0_4.index t (1 : Fin 2) * 128 + 1 * j.val = j.val; rw [e.2.2.2.2.2.2.2.2.2.1]; omega

theorem brB_apply (c : Dev nD) (t : Fin cfg0.N) (j : Fin 128) : brB V c t (ix2 (0 : Fin 1) j) = brA V c (ix2 (0 : Fin 1) j) := by
  have e := idx_facts t
  show V c main_v17 (((cfg0.win 5).blk t).view.emb (ix2 (0 : Fin 1) j)) = V c main_v17 _
  refine congrArg (V c main_v17) (funext fun a => Fin.ext ?_)
  match a with
  | ⟨0, _⟩ => show win0_5.index t (0 : Fin 2) * 1 + 1 * 0 = 0; rw [e.2.2.2.2.2.2.2.2.2.2.1]
  | ⟨1, _⟩ => show win0_5.index t (1 : Fin 2) * 128 + 1 * j.val = j.val; rw [e.2.2.2.2.2.2.2.2.2.2.2.1]; omega

/-- The activations of the block at point `t`. -/
def hB (c : Dev nD) (t : Fin cfg0.N) : Fin 5000 → Fin 128 → EReal :=
  hBlk (aggB V c t) (xB V c t) (wlB V c t) (wrB V c t) (blB V c t) (brB V c t)

/-- Row `r` of block `t` is row `5000 t + r` of the whole. -/
theorem hB_eq (c : Dev nD) (t : Fin cfg0.N) (r : Fin 5000) (j : Fin 128) :
    hB V c t r j = hK V c (⟨5000 * t.val + r.val, by have := t.isLt; have h10 : cfg0.N = 10 := N_0; have := r.isLt; omega⟩ : Fin 50000) j := by
  unfold hB hBlk hK SageBN.hid
  simp only [xB_apply, aggB_apply, wlB_apply, wrB_apply, blB_apply, brB_apply]

/-! ## The points up to `n`, as a set -/

theorem filter_le_zero (N : ℕ) (h : 0 < N) : Finset.univ.filter (fun t : Fin N => t.val ≤ 0) = {⟨0, h⟩} := by
  ext t
  simp only [Finset.mem_filter, Finset.mem_univ, true_and, Finset.mem_singleton, Fin.ext_iff]
  omega

theorem filter_le_succ (N n : ℕ) (h : n + 1 < N) :
    Finset.univ.filter (fun t : Fin N => t.val ≤ n + 1) = insert ⟨n + 1, h⟩ (Finset.univ.filter (fun t : Fin N => t.val ≤ n)) := by
  ext t
  simp only [Finset.mem_filter, Finset.mem_univ, true_and, Finset.mem_insert, Fin.ext_iff]
  omega

theorem not_mem_filter_le (N n : ℕ) (h : n + 1 < N) : (⟨n + 1, h⟩ : Fin N) ∉ Finset.univ.filter (fun t : Fin N => t.val ≤ n) := by
  simp only [Finset.mem_filter, Finset.mem_univ, true_and]
  omega

/-- Ten blocks of 5000 rows, indexed by the grid's points, are all 50000 rows. -/
theorem sum_all (f : Fin 50000 → EReal) :
    (∑ t : Fin cfg0.N, ∑ r : Fin 5000, f (⟨5000 * t.val + r.val, by have := t.isLt; have h10 : cfg0.N = 10 := N_0; have := r.isLt; omega⟩ : Fin 50000)) = ∑ n : Fin 50000, f n := by
  rw [← sum_blocks f, ← Equiv.sum_comp (finCongr (N_0 : cfg0.N = 10))]
  rfl

/-! ## The running rows, point by point -/

/-- The running column sums after point `n`: zero plus block 0's, then the previous plus block `n`'s. -/
def sAt (c : Dev nD) : (n : ℕ) → n < cfg0.N → FVec Ideal S1x128 .f32
  | 0, h => k0_pay5 (aggB V c ⟨0, h⟩) (xB V c ⟨0, h⟩) (wlB V c ⟨0, h⟩) (wrB V c ⟨0, h⟩) (blB V c ⟨0, h⟩) (brB V c ⟨0, h⟩) (k0_pay2 (F := Ideal))
  | n + 1, h => k0_pay5 (aggB V c ⟨n + 1, h⟩) (xB V c ⟨n + 1, h⟩) (wlB V c ⟨n + 1, h⟩) (wrB V c ⟨n + 1, h⟩) (blB V c ⟨n + 1, h⟩) (brB V c ⟨n + 1, h⟩) (sAt c n (Nat.lt_of_succ_lt h))

/-- The running column sums of squares after point `n`. -/
def qAt (c : Dev nD) : (n : ℕ) → n < cfg0.N → FVec Ideal S1x128 .f32
  | 0, h => k0_pay1 (k0_pay4 (aggB V c ⟨0, h⟩) (xB V c ⟨0, h⟩) (wlB V c ⟨0, h⟩) (wrB V c ⟨0, h⟩) (blB V c ⟨0, h⟩) (brB V c ⟨0, h⟩)) (k0_pay3 (F := Ideal))
  | n + 1, h => k0_pay1 (k0_pay4 (aggB V c ⟨n + 1, h⟩) (xB V c ⟨n + 1, h⟩) (wlB V c ⟨n + 1, h⟩) (wrB V c ⟨n + 1, h⟩) (blB V c ⟨n + 1, h⟩) (brB V c ⟨n + 1, h⟩)) (qAt c n (Nat.lt_of_succ_lt h))

/-- What the three output buffers hold after point `n`: the block's activations and the two running rows. -/
theorem outsAt_eq (c : Dev nD) : ∀ (n : ℕ) (h : n < cfg0.N),
    outsAt0 V c n h = ((k0_pay4 (F := Ideal) (aggB V c ⟨n, h⟩) (xB V c ⟨n, h⟩) (wlB V c ⟨n, h⟩) (wrB V c ⟨n, h⟩) (blB V c ⟨n, h⟩) (brB V c ⟨n, h⟩), sAt V c n h, qAt V c n h) :
      Vec Ideal S5000x128 .f32 × Vec Ideal S1x128 .f32 × Vec Ideal S1x128 .f32)
  | 0, h => by
    rw [outsAt0_A V c ⟨0, h⟩ rfl, outA6, outA7, outA8]
    rfl
  | n + 1, h => by
    have hN : cfg0.N = 10 := N_0
    have hB' : ¬(⟨n + 1, h⟩ : Fin cfg0.N).val % 10 = 0 := by dsimp only; omega
    rw [outsAt0_B V c ⟨n + 1, h⟩ hB', outB6, outB7, outB8]
    show (_, k0_pay5 _ _ _ _ _ _ (outsAt0 V c n _).2.1, k0_pay1 _ (outsAt0 V c n _).2.2) = _
    rw [outsAt_eq c n]
    rfl

/-- The running column sums at a column: the blocks' column sums up to the point. -/
theorem sAt_apply (c : Dev nD) : ∀ (n : ℕ) (h : n < cfg0.N) (j : Fin 128),
    sAt V c n h (ix2 (0 : Fin 1) j) = ∑ t ∈ Finset.univ.filter (fun t : Fin cfg0.N => t.val ≤ n), ∑ r : Fin 5000, hB V c t r j
  | 0, h, j => by
    rw [filter_le_zero cfg0.N h, Finset.sum_singleton]
    refine (pay5_apply (aggB V c ⟨0, h⟩) (xB V c ⟨0, h⟩) (wlB V c ⟨0, h⟩) (wrB V c ⟨0, h⟩) (blB V c ⟨0, h⟩) (brB V c ⟨0, h⟩) (k0_pay2 (F := Ideal)) j).trans ?_
    rw [pay2_apply, zeroW_eq, zero_add]
    rfl
  | n + 1, h, j => by
    rw [filter_le_succ cfg0.N n h, Finset.sum_insert (not_mem_filter_le cfg0.N n h), ← sAt_apply c n (Nat.lt_of_succ_lt h) j]
    exact (pay5_apply (aggB V c ⟨n + 1, h⟩) (xB V c ⟨n + 1, h⟩) (wlB V c ⟨n + 1, h⟩) (wrB V c ⟨n + 1, h⟩) (blB V c ⟨n + 1, h⟩) (brB V c ⟨n + 1, h⟩) (sAt V c n (Nat.lt_of_succ_lt h)) j).trans (add_comm _ _)

theorem qAt_apply (c : Dev nD) : ∀ (n : ℕ) (h : n < cfg0.N) (j : Fin 128),
    qAt V c n h (ix2 (0 : Fin 1) j)
      = ∑ t ∈ Finset.univ.filter (fun t : Fin cfg0.N => t.val ≤ n), ∑ r : Fin 5000, hB V c t r j * hB V c t r j
  | 0, h, j => by
    rw [filter_le_zero cfg0.N h, Finset.sum_singleton]
    refine (pay1_apply (k0_pay4 (aggB V c ⟨0, h⟩) (xB V c ⟨0, h⟩) (wlB V c ⟨0, h⟩) (wrB V c ⟨0, h⟩) (blB V c ⟨0, h⟩) (brB V c ⟨0, h⟩)) (k0_pay3 (F := Ideal)) j).trans ?_
    rw [pay3_apply, zeroW_eq, zero_add]
    refine Finset.sum_congr rfl fun r _ => ?_
    rw [pay4_apply (aggB V c ⟨0, h⟩) (xB V c ⟨0, h⟩) (wlB V c ⟨0, h⟩) (wrB V c ⟨0, h⟩) (blB V c ⟨0, h⟩) (brB V c ⟨0, h⟩) r j]
    rfl
  | n + 1, h, j => by
    rw [filter_le_succ cfg0.N n h, Finset.sum_insert (not_mem_filter_le cfg0.N n h), ← qAt_apply c n (Nat.lt_of_succ_lt h) j]
    refine ((pay1_apply (k0_pay4 (aggB V c ⟨n + 1, h⟩) (xB V c ⟨n + 1, h⟩) (wlB V c ⟨n + 1, h⟩) (wrB V c ⟨n + 1, h⟩) (blB V c ⟨n + 1, h⟩) (brB V c ⟨n + 1, h⟩)) (qAt V c n (Nat.lt_of_succ_lt h)) j).trans (add_comm _ _)).trans ?_
    refine congrArg (· + _) (Finset.sum_congr rfl fun r _ => ?_)
    rw [pay4_apply (aggB V c ⟨n + 1, h⟩) (xB V c ⟨n + 1, h⟩) (wlB V c ⟨n + 1, h⟩) (wrB V c ⟨n + 1, h⟩) (blB V c ⟨n + 1, h⟩) (brB V c ⟨n + 1, h⟩) r j]
    rfl

/-! ## The three result arrays -/

/-- An index of the activations array is in point `t`'s block iff each coordinate is in the block's range. -/
theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18_0).slice (win0_6.rect t)).set ↔ _
  rw [View.set_slice_whole, Rect.mem_set_unit]
  exact Iff.rfl

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v18_1).slice (win0_7.rect t)).set ↔ _
  rw [View.set_slice_whole, Rect.mem_set_unit]
  exact Iff.rfl

theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v18_2).slice (win0_8.rect t)).set ↔ _
  rw [View.set_slice_whole, Rect.mem_set_unit]
  exact Iff.rfl

/-- One entry of the block point `t` stores, against the whole activations: the entry at `z` of the block is the
    activation of row `5000 t + z₀`, column `z₁`. -/
theorem entry6 (c : Dev nD) (t : Fin cfg0.N) (z : S5000x128.Idx) (i : S50000x128.Idx)
    (h0 : (i 0).val = 5000 * t.val + (z 0).val) (h1 : (i 1).val = (z 1).val) :
    k0_pay4 (F := Ideal) (aggB V c t) (xB V c t) (wlB V c t) (wrB V c t) (blB V c t) (brB V c t) z = SageBN.arr2 (hK V c) i := by
  obtain ⟨r, j, rfl⟩ : ∃ (r : Fin 5000) (j : Fin 128), z = ix2 r j := ⟨z 0, z 1, eq_ix2 z⟩
  obtain ⟨n, k, rfl⟩ : ∃ (n : Fin 50000) (k : Fin 128), i = ix2 n k := ⟨i 0, i 1, eq_ix2 i⟩
  obtain rfl : k = j := Fin.ext h1
  have hn : n = (⟨5000 * t.val + r.val, by have := t.isLt; have h10 : cfg0.N = 10 := N_0; have := r.isLt; omega⟩ : Fin 50000) := Fin.ext h0
  rw [SageBN.arr2_ix2, hn]
  exact (pay4_apply (aggB V c t) (xB V c t) (wlB V c t) (wrB V c t) (blB V c t) (brB V c t) r k).trans (hB_eq V c t r k)

/-- The activations array: every row block written once, by its own point. -/
theorem final6 (c : Dev nD) : (dat0 (F := Ideal) V c).arrAt 6 cfg0.N = SageBN.arr2 (hK V c) := by
  have hN : cfg0.N = 10 := N_0
  refine (dat0 (F := Ideal) V c).arrAt_eq_of_cover 6 _ (fun t _ => ?_) (fun i => ?_)
  · have e := idx_facts t
    show (cfg0.win 6).cut (grid0.coords t) ((dat0 (F := Ideal) V c).after 6 t) = _
    rw [after0_6, outsAt_eq]
    dsimp only
    funext y
    exact entry6 V c t ((cfg0.win 6).xinj (grid0.coords t) y) (((cfg0.win 6).blk t).view.emb y)
      (by show win0_6.index t (0 : Fin 2) * 5000 + 1 * (y 0).val = 5000 * t.val + (y 0).val; rw [e.2.2.2.2.2.2.2.2.2.2.2.2.1]; omega)
      (by show win0_6.index t (1 : Fin 2) * 128 + 1 * (y 1).val = (y 1).val; rw [e.2.2.2.2.2.2.2.2.2.2.2.2.2.1]; omega)
  · have hi0 : (i 0).val < 50000 := (i 0).isLt
    have hi1 : (i 1).val < 128 := (i 1).isLt
    have ht : (i 0).val / 5000 < cfg0.N := by omega
    have e := idx_facts ⟨(i 0).val / 5000, ht⟩
    refine ⟨⟨(i 0).val / 5000, ht⟩, flush0_6 _, ?_⟩
    rw [mem_blk6]
    intro a
    match a with
    | ⟨0, _⟩ => show win0_6.index ⟨(i 0).val / 5000, ht⟩ (0 : Fin 2) * 5000 ≤ (i 0).val ∧ (i 0).val < win0_6.index ⟨(i 0).val / 5000, ht⟩ (0 : Fin 2) * 5000 + 5000; rw [e.2.2.2.2.2.2.2.2.2.2.2.2.1]; show (i 0).val / 5000 * 5000 ≤ (i 0).val ∧ (i 0).val < (i 0).val / 5000 * 5000 + 5000; omega
    | ⟨1, _⟩ => show win0_6.index ⟨(i 0).val / 5000, ht⟩ (1 : Fin 2) * 128 ≤ (i 1).val ∧ (i 1).val < win0_6.index ⟨(i 0).val / 5000, ht⟩ (1 : Fin 2) * 128 + 128; rw [e.2.2.2.2.2.2.2.2.2.2.2.2.2.1]; omega

/-- The running column sums after the last point are the column sums over all rows. -/
theorem entry7 (c : Dev nD) (t : Fin cfg0.N) (ht : t.val = 9) (z i : S1x128.Idx) (h1 : (i 1).val = (z 1).val) :
    sAt V c t.val t.isLt z = SageBN.arr2 (fun (_ : Fin 1) (j : Fin 128) => ∑ n : Fin 50000, hK V c n j) i := by
  have hN : cfg0.N = 10 := N_0
  obtain ⟨p, q, rfl⟩ : ∃ (p : Fin 1) (q : Fin 128), z = ix2 p q := ⟨z 0, z 1, eq_ix2 z⟩
  obtain ⟨p', q', rfl⟩ : ∃ (p' : Fin 1) (q' : Fin 128), i = ix2 p' q' := ⟨i 0, i 1, eq_ix2 i⟩
  obtain rfl : q' = q := Fin.ext h1
  obtain rfl : p = 0 := Subsingleton.elim _ _
  rw [SageBN.arr2_ix2, sAt_apply]
  have hall : Finset.univ.filter (fun s : Fin cfg0.N => s.val ≤ t.val) = Finset.univ := by
    ext s; simp only [Finset.mem_filter, Finset.mem_univ, true_and, iff_true]; have := s.isLt; omega
  rw [hall]
  simp only [hB_eq]
  exact sum_all (fun n => hK V c n q')

theorem entry8 (c : Dev nD) (t : Fin cfg0.N) (ht : t.val = 9) (z i : S1x128.Idx) (h1 : (i 1).val = (z 1).val) :
    qAt V c t.val t.isLt z = SageBN.arr2 (fun (_ : Fin 1) (j : Fin 128) => ∑ n : Fin 50000, hK V c n j * hK V c n j) i := by
  have hN : cfg0.N = 10 := N_0
  obtain ⟨p, q, rfl⟩ : ∃ (p : Fin 1) (q : Fin 128), z = ix2 p q := ⟨z 0, z 1, eq_ix2 z⟩
  obtain ⟨p', q', rfl⟩ : ∃ (p' : Fin 1) (q' : Fin 128), i = ix2 p' q' := ⟨i 0, i 1, eq_ix2 i⟩
  obtain rfl : q' = q := Fin.ext h1
  obtain rfl : p = 0 := Subsingleton.elim _ _
  rw [SageBN.arr2_ix2, qAt_apply]
  have hall : Finset.univ.filter (fun s : Fin cfg0.N => s.val ≤ t.val) = Finset.univ := by
    ext s; simp only [Finset.mem_filter, Finset.mem_univ, true_and, iff_true]; have := s.isLt; omega
  rw [hall]
  simp only [hB_eq]
  exact sum_all (fun n => hK V c n q' * hK V c n q')

set_option maxRecDepth 200000 in
/-- The column sums over all 50000 rows. -/
theorem final7 (c : Dev nD) : (dat0 (F := Ideal) V c).arrAt 7 cfg0.N
    = SageBN.arr2 (fun (_ : Fin 1) (j : Fin 128) => ∑ n : Fin 50000, hK V c n j) := by
  have hN : cfg0.N = 10 := N_0
  refine (dat0 (F := Ideal) V c).arrAt_eq_of_cover 7 _ (fun t hf => ?_) (fun i => ?_)
  · have ht : t.val = 9 := by have := (flush0_7 t).mp hf; have := t.isLt; omega
    have e := idx_facts t
    show (cfg0.win 7).cut (grid0.coords t) ((dat0 (F := Ideal) V c).after 7 t) = _
    rw [after0_7, outsAt_eq]
    dsimp only
    funext y
    exact entry7 V c t ht ((cfg0.win 7).xinj (grid0.coords t) y) (((cfg0.win 7).blk t).view.emb y)
      (by show win0_7.index t (1 : Fin 2) * 128 + 1 * (y 1).val = (y 1).val; rw [e.2.2.2.2.2.2.2.2.2.2.2.2.2.2.2.1]; omega)
  · have hi0 : (i 0).val < 1 := (i 0).isLt
    have hi1 : (i 1).val < 128 := (i 1).isLt
    have e := idx_facts t0_9
    refine ⟨t0_9, (flush0_7 t0_9).mpr rfl, ?_⟩
    rw [mem_blk7]
    intro a
    match a with
    | ⟨0, _⟩ => show win0_7.index t0_9 (0 : Fin 2) * 1 ≤ (i 0).val ∧ (i 0).val < win0_7.index t0_9 (0 : Fin 2) * 1 + 1; rw [e.2.2.2.2.2.2.2.2.2.2.2.2.2.2.1]; omega
    | ⟨1, _⟩ => show win0_7.index t0_9 (1 : Fin 2) * 128 ≤ (i 1).val ∧ (i 1).val < win0_7.index t0_9 (1 : Fin 2) * 128 + 128; rw [e.2.2.2.2.2.2.2.2.2.2.2.2.2.2.2.1]; omega

set_option maxRecDepth 200000 in
/-- The column sums of squares over all 50000 rows. -/
theorem final8 (c : Dev nD) : (dat0 (F := Ideal) V c).arrAt 8 cfg0.N
    = SageBN.arr2 (fun (_ : Fin 1) (j : Fin 128) => ∑ n : Fin 50000, hK V c n j * hK V c n j) := by
  have hN : cfg0.N = 10 := N_0
  refine (dat0 (F := Ideal) V c).arrAt_eq_of_cover 8 _ (fun t hf => ?_) (fun i => ?_)
  · have ht : t.val = 9 := by have := (flush0_8 t).mp hf; have := t.isLt; omega
    have e := idx_facts t
    show (cfg0.win 8).cut (grid0.coords t) ((dat0 (F := Ideal) V c).after 8 t) = _
    rw [after0_8, outsAt_eq]
    dsimp only
    funext y
    exact entry8 V c t ht ((cfg0.win 8).xinj (grid0.coords t) y) (((cfg0.win 8).blk t).view.emb y)
      (by show win0_8.index t (1 : Fin 2) * 128 + 1 * (y 1).val = (y 1).val; rw [e.2.2.2.2.2.2.2.2.2.2.2.2.2.2.2.2.2]; omega)
  · have hi0 : (i 0).val < 1 := (i 0).isLt
    have hi1 : (i 1).val < 128 := (i 1).isLt
    have e := idx_facts t0_9
    refine ⟨t0_9, (flush0_8 t0_9).mpr rfl, ?_⟩
    rw [mem_blk8]
    intro a
    match a with
    | ⟨0, _⟩ => show win0_8.index t0_9 (0 : Fin 2) * 1 ≤ (i 0).val ∧ (i 0).val < win0_8.index t0_9 (0 : Fin 2) * 1 + 1; rw [e.2.2.2.2.2.2.2.2.2.2.2.2.2.2.2.2.1]; omega
    | ⟨1, _⟩ => show win0_8.index t0_9 (1 : Fin 2) * 128 ≤ (i 1).val ∧ (i 1).val < win0_8.index t0_9 (1 : Fin 2) * 128 + 128; rw [e.2.2.2.2.2.2.2.2.2.2.2.2.2.2.2.2.2]; omega

end Cert.KernelIdeal.StageOne

end
-- ==== Proof.StageTwo.lean ====
/-
  The second kernel's result array: every block of 5000 rows is written once, with
  `gain · (h − mean) · istd + offset`, the four per-column rows read whole at every grid point.

  The grid has ten points.  Point `t` reads rows `5000 t … 5000 t + 4999` of the activations and the four rows whole,
  and writes the same rows of the result.  So row `n` of the result is written by point `n / 5000` and by no other,
  and what is written at `(n, j)` depends on the activations at `(n, j)` and on column `j` of the four rows only.
-/
import proofs.«112405_j24120536334768_1_alg».proof.Proof.Gen.KernelIdeal.Frame
import proofs.«112405_j24120536334768_1_alg».proof.Proof.BatchNorm
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.StageTwo

open Cert.KernelIdeal Cert.KernelIdeal.Gen

variable (V : (c : Dev nD) → (b : Ref sig .tc) → Buf (Elt Ideal) ((c : Thread nD τ).loc b))

/-- The second kernel's arrays as it finds them, by their literal types. -/
abbrev hA (c : Dev nD) : FVec Ideal S50000x128 .f32 := V c main_v18_0
abbrev gA (c : Dev nD) : FVec Ideal S1x128 .f32 := V c main_v28
abbrev bA (c : Dev nD) : FVec Ideal S1x128 .f32 := V c main_v29
abbrev muA (c : Dev nD) : FVec Ideal S1x128 .f32 := V c main_v20
abbrev isA (c : Dev nD) : FVec Ideal S1x128 .f32 := V c main_v27

/-! ## The body's arithmetic at an entry -/

/-- The body's loads and its store all start at row 0, column 0. -/
theorem stage2_zero_offsets : (![0, 0] : Fin 2 → Nat) = fun _ => 0 := funext fun a => by fin_cases a <;> rfl

/-- The body's result at row `r`, column `j` of a block: the deviation of the activation from the column's mean, scaled
    by the column's gain and inverse root, plus the column's offset.  Each of the four rows is spread over the 5000
    rows of the block, so at `(r, j)` it is read at `(0, j)`. -/
theorem stage2_payload_apply (x0 : Vec Ideal S5000x128 .f32) (g mu sd b : Vec Ideal S1x128 .f32) (r : Fin 5000) (j : Fin 128) :
    k1_pay1 x0 g mu sd b (ix2 r j)
      = g (ix2 (0 : Fin 1) j) * (x0 (ix2 r j) - mu (ix2 (0 : Fin 1) j)) * sd (ix2 (0 : Fin 1) j) + b (ix2 (0 : Fin 1) j) := by
  unfold k1_pay1
  simp only [shapeCast_self]
  rw [addf_apply, mulf_apply, mulf_apply, subf_apply]
  rw [broadcastTo_1b_ab_apply, broadcastTo_1b_ab_apply, broadcastTo_1b_ab_apply, broadcastTo_1b_ab_apply]

/-- One entry of one block against the whole arrays.  If the four row blocks are the four rows, and the activations'
    block at `z` is the activations' array at `i`, an index of the same column, then the body's result at `z` is the
    normalised array at `i`. -/
theorem stage2_entry (H : FVec Ideal S50000x128 .f32) (G B M S : FVec Ideal S1x128 .f32)
    (x0 : Vec Ideal S5000x128 .f32) (g b mu sd : Vec Ideal S1x128 .f32)
    (hg : g = G) (hb : b = B) (hmu : mu = M) (hsd : sd = S)
    (z : S5000x128.Idx) (i : S50000x128.Idx) (h0 : x0 z = H i) (hcol : (i 1).val = (z 1).val) :
    k1_pay1 x0 g mu sd b z
      = SageBN.arr2 (fun (n : Fin 50000) (j : Fin 128) =>
        G (ix2 (0 : Fin 1) j) * (H (ix2 n j) - M (ix2 (0 : Fin 1) j)) * S (ix2 (0 : Fin 1) j) + B (ix2 (0 : Fin 1) j)) i := by
  subst hg hb hmu hsd
  obtain ⟨r, j, rfl⟩ : ∃ (r : Fin 5000) (j : Fin 128), z = ix2 r j := ⟨z 0, z 1, eq_ix2 z⟩
  obtain ⟨n, k, rfl⟩ : ∃ (n : Fin 50000) (k : Fin 128), i = ix2 n k := ⟨i 0, i 1, eq_ix2 i⟩
  have hk : k = j := Fin.ext hcol
  subst hk
  rw [stage2_payload_apply, h0]
  rfl

/-! ## Which block each window holds at a grid point -/

/-- The block indices at the ten grid points: the activations and the result move down one block of rows per point;
    the four rows stay at block (0, 0). -/
theorem stage2_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The gain row's block at every grid point is the whole row: its block index is (0, 0), so an entry of the block
    sits in the array at its own coordinates. -/
theorem gainBlock_eq (c : Dev nD) (t : Fin cfg1.N) : iblk1 (F := Ideal) V c 1 t = gA V c := by
  obtain ⟨_, _, e0, e1, _⟩ := stage2_index_facts t
  funext z
  show V c main_v28 (((cfg1.win 1).blk t).view.emb z) = V c main_v28 z
  have h : ((cfg1.win 1).blk t).view.emb z = z := by
    funext a; apply Fin.ext
    match a with
    | ⟨0, _⟩ => show win1_1.index t (0 : Fin 2) * 1 + 1 * (z 0).val = (z 0).val; omega
    | ⟨1, _⟩ => show win1_1.index t (1 : Fin 2) * 128 + 1 * (z 1).val = (z 1).val; omega
  rw [h]

/-- The offset row's block at every grid point is the whole row: its block index is (0, 0), so an entry of the block
    sits in the array at its own coordinates. -/
theorem offsetBlock_eq (c : Dev nD) (t : Fin cfg1.N) : iblk1 (F := Ideal) V c 2 t = bA V c := by
  obtain ⟨_, _, _, _, e0, e1, _⟩ := stage2_index_facts t
  funext z
  show V c main_v29 (((cfg1.win 2).blk t).view.emb z) = V c main_v29 z
  have h : ((cfg1.win 2).blk t).view.emb z = z := by
    funext a; apply Fin.ext
    match a with
    | ⟨0, _⟩ => show win1_2.index t (0 : Fin 2) * 1 + 1 * (z 0).val = (z 0).val; omega
    | ⟨1, _⟩ => show win1_2.index t (1 : Fin 2) * 128 + 1 * (z 1).val = (z 1).val; omega
  rw [h]

/-- The mean row's block at every grid point is the whole row: its block index is (0, 0), so an entry of the block
    sits in the array at its own coordinates. -/
theorem meanBlock_eq (c : Dev nD) (t : Fin cfg1.N) : iblk1 (F := Ideal) V c 3 t = muA V c := by
  obtain ⟨_, _, _, _, _, _, e0, e1, _⟩ := stage2_index_facts t
  funext z
  show V c main_v20 (((cfg1.win 3).blk t).view.emb z) = V c main_v20 z
  have h : ((cfg1.win 3).blk t).view.emb z = z := by
    funext a; apply Fin.ext
    match a with
    | ⟨0, _⟩ => show win1_3.index t (0 : Fin 2) * 1 + 1 * (z 0).val = (z 0).val; omega
    | ⟨1, _⟩ => show win1_3.index t (1 : Fin 2) * 128 + 1 * (z 1).val = (z 1).val; omega
  rw [h]

/-- The inverse-root row's block at every grid point is the whole row: its block index is (0, 0), so an entry of the block
    sits in the array at its own coordinates. -/
theorem istdBlock_eq (c : Dev nD) (t : Fin cfg1.N) : iblk1 (F := Ideal) V c 4 t = isA V c := by
  obtain ⟨_, _, _, _, _, _, _, _, e0, e1, _⟩ := stage2_index_facts t
  funext z
  show V c main_v27 (((cfg1.win 4).blk t).view.emb z) = V c main_v27 z
  have h : ((cfg1.win 4).blk t).view.emb z = z := by
    funext a; apply Fin.ext
    match a with
    | ⟨0, _⟩ => show win1_4.index t (0 : Fin 2) * 1 + 1 * (z 0).val = (z 0).val; omega
    | ⟨1, _⟩ => show win1_4.index t (1 : Fin 2) * 128 + 1 * (z 1).val = (z 1).val; omega
  rw [h]

/-- The activations' block at point `t` lies over the same rows as the result's block: an entry of one is read where
    the entry of the other at the same place in the block is written, at row `5000 t + r`, column `j`. -/
theorem actBlock_at (c : Dev nD) (t : Fin cfg1.N) (y : ((cfg1.win 5).xblock (grid1.coords t)).Idx) :
    iblk1 (F := Ideal) V c 0 t ((cfg1.win 5).xinj (grid1.coords t) y) = hA V c (((cfg1.win 5).blk t).view.emb y) := by
  obtain ⟨e0, e1, _, _, _, _, _, _, _, _, e10, e11⟩ := stage2_index_facts t
  show V c main_v18_0 (((cfg1.win 0).blk t).view.emb ((cfg1.win 5).xinj (grid1.coords t) y)) = V c main_v18_0 (((cfg1.win 5).blk t).view.emb y)
  have h : ((cfg1.win 0).blk t).view.emb ((cfg1.win 5).xinj (grid1.coords t) y) = ((cfg1.win 5).blk t).view.emb y := by
    funext a; apply Fin.ext
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * (y 1).val = win1_5.index t (1 : Fin 2) * 128 + 1 * (y 1).val; omega
  rw [h]

/-- An entry of the result's block keeps its column in the array: the block's column index is 0. -/
theorem outColumn_at (t : Fin cfg1.N) (y : ((cfg1.win 5).xblock (grid1.coords t)).Idx) :
    ((((cfg1.win 5).blk t).view.emb y) 1).val = (((cfg1.win 5).xinj (grid1.coords t) y) 1).val := by
  obtain ⟨_, _, _, _, _, _, _, _, _, _, e10, e11⟩ := stage2_index_facts t
  show win1_5.index t (1 : Fin 2) * 128 + 1 * (y 1).val = (y 1).val
  omega

/-! ## What a grid point writes back, and the rows it covers -/

/-- What point `t` writes back is block `t` of the normalised array: the body's one store fills the block, and each
    entry of it is the normalised array's entry at the place the block's entry has in the array. -/
theorem stage2_flushed_eq (c : Dev nD) (t : Fin cfg1.N) :
    (dat1 (F := Ideal) V c).flushed 5 t
      = ((cfg1.win 5).blk t).view.read (Elt Ideal) (SageBN.arr2 (fun (n : Fin 50000) (j : Fin 128) =>
        gA V c (ix2 (0 : Fin 1) j) * (hA V c (ix2 n j) - muA V c (ix2 (0 : Fin 1) j)) * isA V c (ix2 (0 : Fin 1) j) + bA V c (ix2 (0 : Fin 1) j))) := by
  show (cfg1.win 5).cut (grid1.coords t) ((dat1 V c).after 5 t) = _
  rw [after1_5]
  unfold out1_5
  rw [View.canon_unit_zero stage2_zero_offsets]
  simp only [View.ld_unit_zero (S := S5000x128) stage2_zero_offsets, View.ld_unit_zero (S := S1x128) stage2_zero_offsets]
  funext y
  exact stage2_entry (hA V c) (gA V c) (bA V c) (muA V c) (isA V c)
    (iblk1 V c 0 t) (iblk1 V c 1 t) (iblk1 V c 2 t) (iblk1 V c 3 t) (iblk1 V c 4 t)
    (gainBlock_eq V c t) (offsetBlock_eq V c t) (meanBlock_eq V c t) (istdBlock_eq V c t)
    ((cfg1.win 5).xinj (grid1.coords t) y) (((cfg1.win 5).blk t).view.emb y) (actBlock_at V c t y) (outColumn_at t y)

/-- An index of the result array is in point `t`'s block iff on each axis it lies in the block's range. -/
theorem mem_outBlock (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v30).slice (win1_5.rect t)).set ↔ _
  rw [View.set_slice_whole, Rect.mem_set_unit]
  exact Iff.rfl

/-- Every entry of the result array is written: row `n` lies in the block of point `n / 5000`, which is below 10
    because `n` is below 50000, and every point writes its block back. -/
theorem outBlocks_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 5000 < 10 := by omega
  refine ⟨⟨(i 0).val / 5000, ht⟩, flush1_5 _, ?_⟩
  obtain ⟨_, _, _, _, _, _, _, _, _, _, e10, e11⟩ := stage2_index_facts ⟨(i 0).val / 5000, ht⟩
  rw [mem_outBlock]
  intro a
  match a with
  | ⟨0, _⟩ => show win1_5.index ⟨(i 0).val / 5000, ht⟩ (0 : Fin 2) * 5000 ≤ (i 0).val ∧ (i 0).val < win1_5.index ⟨(i 0).val / 5000, ht⟩ (0 : Fin 2) * 5000 + 5000; rw [e10]; show (i 0).val / 5000 * 5000 ≤ (i 0).val ∧ (i 0).val < (i 0).val / 5000 * 5000 + 5000; omega
  | ⟨1, _⟩ => show win1_5.index ⟨(i 0).val / 5000, ht⟩ (1 : Fin 2) * 128 ≤ (i 1).val ∧ (i 1).val < win1_5.index ⟨(i 0).val / 5000, ht⟩ (1 : Fin 2) * 128 + 128; rw [e11]; omega

/-- After the second kernel its result array holds the normalised activations, entry by entry. -/
theorem final5 (c : Dev nD) : (dat1 (F := Ideal) V c).arrAt 5 cfg1.N
    = SageBN.arr2 (fun (n : Fin 50000) (j : Fin 128) =>
        gA V c (ix2 (0 : Fin 1) j) * (hA V c (ix2 n j) - muA V c (ix2 (0 : Fin 1) j)) * isA V c (ix2 (0 : Fin 1) j) + bA V c (ix2 (0 : Fin 1) j)) :=
  (dat1 (F := Ideal) V c).arrAt_eq_of_cover 5
    (SageBN.arr2 (fun (n : Fin 50000) (j : Fin 128) =>
        gA V c (ix2 (0 : Fin 1) j) * (hA V c (ix2 n j) - muA V c (ix2 (0 : Fin 1) j)) * isA V c (ix2 (0 : Fin 1) j) + bA V c (ix2 (0 : Fin 1) j)))
    (fun t _ => stage2_flushed_eq V c t) outBlocks_cover

end Cert.KernelIdeal.StageTwo

end
-- ==== Proof.KernelValue.lean ====
/-
  The kernel program's result array as one function of the arguments: the normalised output of the activations, the
  variance written as the mean of the squares less the square of the mean.
-/
import proofs.«112405_j24120536334768_1_alg».proof.Proof.Gen.KernelIdeal.Frame
import proofs.«112405_j24120536334768_1_alg».proof.Proof.BatchNorm
import proofs.«112405_j24120536334768_1_alg».proof.Proof.NeighbourSum
import proofs.«112405_j24120536334768_1_alg».proof.Proof.HostGlue
import proofs.«112405_j24120536334768_1_alg».proof.Proof.StageOne
import proofs.«112405_j24120536334768_1_alg».proof.Proof.StageTwo

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.NeighbourSum Cert.KernelIdeal.HostGlue

variable (m : (ℓ : Loc nD τ sig) → Buf (Elt Ideal) ℓ) (ρ : Dev nD → PrngReg)

/-- The activations as a function of the arguments as launched. -/
def hArgs (c : Dev nD) : Fin 50000 → Fin 128 → EReal :=
  SageBN.hid (fun n k => aggK (xM m c) (eM m c) (ix2 n k)) (fun n k => xM m c (ix2 n k)) (fun j k => wlM m c (ix2 j k))
    (fun j k => wrM m c (ix2 j k)) (fun j => blM m c (ix1 j)) (fun j => brM m c (ix1 j))

/-- After the run the result array holds the normalised activations. -/
theorem result_eq (c : Dev nD) : W4 m ρ c (Proc.devRef .tc main_v30)
    = SageBN.arr2 (SageBN.norm (fun j => gM m c (ix1 j)) (fun j => bM m c (ix1 j)) (hArgs m c) (SageBN.varK (hArgs m c))) := by
  -- The first kernel's activations, read at the arrays it finds, are the activations of the arguments: the host stretch
  -- before it hands over the neighbour sums, the features, the two weight matrices transposed and the two biases as rows.
  have hh : StageOne.hK (V1 m ρ) c = hArgs m c := by
    have e1 : (fun (n : Fin 50000) (k : Fin 128) => StageOne.aggA (V1 m ρ) c (ix2 n k))
        = fun n k => aggK (xM m c) (eM m c) (ix2 n k) :=
      funext fun n => funext fun k => congrFun (agg1_eq m ρ c) (ix2 n k)
    have e2 : (fun (n : Fin 50000) (k : Fin 128) => StageOne.xA (V1 m ρ) c (ix2 n k)) = fun n k => xM m c (ix2 n k) :=
      funext fun n => funext fun k => congrFun (x1_eq m ρ c) (ix2 n k)
    have e3 : (fun (j k : Fin 128) => StageOne.wlA (V1 m ρ) c (ix2 k j)) = fun j k => wlM m c (ix2 j k) :=
      funext fun j => funext fun k => wl1_apply m ρ c k j
    have e4 : (fun (j k : Fin 128) => StageOne.wrA (V1 m ρ) c (ix2 k j)) = fun j k => wrM m c (ix2 j k) :=
      funext fun j => funext fun k => wr1_apply m ρ c k j
    have e5 : (fun (j : Fin 128) => StageOne.blA (V1 m ρ) c (ix2 (0 : Fin 1) j)) = fun j => blM m c (ix1 j) :=
      funext fun j => bl1_apply m ρ c j
    have e6 : (fun (j : Fin 128) => StageOne.brA (V1 m ρ) c (ix2 (0 : Fin 1) j)) = fun j => brM m c (ix1 j) :=
      funext fun j => br1_apply m ρ c j
    unfold StageOne.hK hArgs
    rw [e1, e2, e3, e4, e5, e6]
  -- The result array is the second kernel's output window after its last grid point.
  have h4 : W4 m ρ c (Proc.devRef .tc main_v30) = (dat1 (F := Ideal) (V3 m ρ) c).arrAt 5 cfg1.N := W4_arr m ρ c 5
  rw [h4, StageTwo.final5 (V3 m ρ) c]
  refine congrArg SageBN.arr2 (funext fun n => funext fun j => ?_)
  show g3 m ρ c (ix2 (0 : Fin 1) j) * (h3 m ρ c (ix2 n j) - mu3 m ρ c (ix2 (0 : Fin 1) j)) * is3 m ρ c (ix2 (0 : Fin 1) j)
      + b3 m ρ c (ix2 (0 : Fin 1) j) = _
  -- The activations reach the second kernel untouched.
  have hH : h3 m ρ c (ix2 n j) = hArgs m c n j := by
    rw [h3_eq]
    show (dat0 (F := Ideal) (V1 m ρ) c).arrAt 6 cfg0.N (ix2 n j) = _
    rw [StageOne.final6 (V1 m ρ) c, SageBN.arr2_ix2, hh]
  -- The first kernel's two small results are the column sums and the column sums of squares.
  have hS : sOut m ρ c (ix2 (0 : Fin 1) j) = ∑ n : Fin 50000, hArgs m c n j := by
    show (dat0 (F := Ideal) (V1 m ρ) c).arrAt 7 cfg0.N (ix2 (0 : Fin 1) j) = _
    rw [StageOne.final7 (V1 m ρ) c, SageBN.arr2_ix2, hh]
  have hQ : qOut m ρ c (ix2 (0 : Fin 1) j) = ∑ n : Fin 50000, hArgs m c n j * hArgs m c n j := by
    show (dat0 (F := Ideal) (V1 m ρ) c).arrAt 8 cfg0.N (ix2 (0 : Fin 1) j) = _
    rw [StageOne.final8 (V1 m ρ) c, SageBN.arr2_ix2, hh]
  -- So the mean row is the column mean, and the inverse-root row is taken of the variance in its first spelling.
  have hmu : mu3 m ρ c (ix2 (0 : Fin 1) j) = SageBN.colMean (hArgs m c) j :=
    (mu3_apply m ρ c j).trans (congrArg (fun s => Ideal.div s SageBN.cntW) hS)
  have his : is3 m ρ c (ix2 (0 : Fin 1) j) = Ideal.rsqrt (SageBN.varK (hArgs m c) j + SageBN.epsW) := by
    rw [is3_apply, hmu, hQ]
    rfl
  rw [g3_apply, b3_apply, hH, hmu, his]
  rfl

end Cert.KernelIdeal.KernelValue

end
-- ==== Proof.lean ====
/-
  The certificate of a graph layer with batch normalisation.

  Both programs first add, for every edge, a row of `x` into the row of an all-zero array the edge names (the same
  host operations, so the same neighbour sums), then form the activations `h = max (agg·Wlᵀ + bl + x·Wrᵀ + br) 0` and
  normalise each column of `h` over the 50000 rows: `gain · (h − mean) · (var + ε)^(−1/2) + offset`.

  The kernel program computes `h` in ten blocks of 5000 rows, accumulating each column's sum and sum of squares across
  the blocks, takes the variance as the mean of the squares less the square of the mean, and normalises in a second
  pass over the blocks.  The reference takes the variance as the mean of the squared deviations from the mean.  On the
  extended reals the two variances agree because, under the precondition, every input is a real number, hence so is
  every neighbour sum (a finite sum of entries of `x`) and every activation; all other steps are the same operations
  in the same order, sums over the rows being taken in any grouping.
-/
import proofs.«112405_j24120536334768_1_alg».proof.Defs
import proofs.«112405_j24120536334768_1_alg».proof.Proof.Gen.Kernel
import proofs.«112405_j24120536334768_1_alg».proof.Proof.Gen.Kernel.Skeleton
import proofs.«112405_j24120536334768_1_alg».proof.Proof.Gen.Kernel.Launch
import proofs.«112405_j24120536334768_1_alg».proof.Proof.Gen.Kernel.Points
import proofs.«112405_j24120536334768_1_alg».proof.Proof.Gen.Kernel.Frame
import proofs.«112405_j24120536334768_1_alg».proof.Proof.Gen.KernelIdeal
import proofs.«112405_j24120536334768_1_alg».proof.Proof.Gen.KernelIdeal.Skeleton
import proofs.«112405_j24120536334768_1_alg».proof.Proof.Gen.KernelIdeal.Launch
import proofs.«112405_j24120536334768_1_alg».proof.Proof.Gen.KernelIdeal.Points
import proofs.«112405_j24120536334768_1_alg».proof.Proof.Gen.KernelIdeal.Frame
import proofs.«112405_j24120536334768_1_alg».proof.Proof.Gen.ReferenceIdeal
import proofs.«112405_j24120536334768_1_alg».proof.Proof.Gen.Pre_finite_inputs
import proofs.«112405_j24120536334768_1_alg».proof.Proof.Gen.ReferenceIdeal.Run
import proofs.«112405_j24120536334768_1_alg».proof.Proof.Gen.ReferenceIdeal.Read
import proofs.«112405_j24120536334768_1_alg».proof.Proof.BatchNorm
import proofs.«112405_j24120536334768_1_alg».proof.Proof.NeighbourSum
import proofs.«112405_j24120536334768_1_alg».proof.Proof.Finite
import proofs.«112405_j24120536334768_1_alg».proof.Proof.RefValue
import proofs.«112405_j24120536334768_1_alg».proof.Proof.KernelRun
import proofs.«112405_j24120536334768_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The frames -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-! ## The two results are one function of the arguments -/

section Bridge

open Cert.KernelIdeal Cert.KernelIdeal.NeighbourSum

/-- Under the precondition the reference's result is the normalised output with the variance in the kernel's form:
    the activations are the same function of the arguments, every one of them a real number, so the two spellings
    of the variance agree. -/
theorem bridge (x : FVec Ideal S50000x128 .f32) (e : IVec S2x800000 32) (Wl : FVec Ideal S128x128 .f32)
    (bl : FVec Ideal S128 .f32) (Wr : FVec Ideal S128x128 .f32) (br g b : FVec Ideal S128 .f32)
    (hpre : Cert.Pre_finite_inputs.fn (F := Ideal) x e Wl bl Wr br g b = fun _ => 1#1) :
    Cert.ReferenceIdeal.Read.val_main_v48 (F := Ideal) x e Wl bl Wr br g b
      = SageBN.arr2 (SageBN.norm (fun j => g (ix1 j)) (fun j => b (ix1 j))
          (SageBN.hid (fun n k => aggK x e (ix2 n k)) (fun n k => x (ix2 n k)) (fun j k => Wl (ix2 j k)) (fun j k => Wr (ix2 j k))
            (fun j => bl (ix1 j)) (fun j => br (ix1 j)))
          (SageBN.varK (SageBN.hid (fun n k => aggK x e (ix2 n k)) (fun n k => x (ix2 n k)) (fun j k => Wl (ix2 j k))
            (fun j k => Wr (ix2 j k)) (fun j => bl (ix1 j)) (fun j => br (ix1 j))))) := by
  obtain ⟨hx, hWl, hbl, hWr, hbr⟩ := Cert.Pre_finite_inputs.Real.real_of_pre x e Wl bl Wr br g b hpre
  have hagg := aggK_real x e hx
  have hfin := SageBN.hid_real (fun n k => aggK x e (ix2 n k)) (fun n k => x (ix2 n k)) (fun j k => Wl (ix2 j k))
    (fun j k => Wr (ix2 j k)) (fun j => bl (ix1 j)) (fun j => br (ix1 j))
    (fun n k => hagg _) (fun n k => hx _) (fun j k => hWl _) (fun j k => hWr _) (fun j => hbl _) (fun j => hbr _)
  have hh : Cert.ReferenceIdeal.RefValue.hR x e Wl bl Wr br
      = SageBN.hid (fun n k => aggK x e (ix2 n k)) (fun n k => x (ix2 n k)) (fun j k => Wl (ix2 j k)) (fun j k => Wr (ix2 j k))
          (fun j => bl (ix1 j)) (fun j => br (ix1 j)) := by
    unfold Cert.ReferenceIdeal.RefValue.hR
    rw [← aggK_eq_ref]
  rw [Cert.ReferenceIdeal.RefValue.result_eq, hh, SageBN.varK_eq_varR _ hfin]

end Bridge

/-! ## The claims -/

/-- At the ideal values the kernel program's result array ends at the normalised activations (its two kernels and the
    host operations around them, read back), and so does the reference's (its run, read back, and `bridge`). -/
theorem algebraic : Cert.algebraic_KernelIdeal_ReferenceIdeal := by
  intro m ρ m' ρ' hpre hagree
  refine ⟨fun c => SageBN.arr2 (SageBN.norm (fun j => Cert.KernelIdeal.HostGlue.gM m c (ix1 j)) (fun j => Cert.KernelIdeal.HostGlue.bM m c (ix1 j))
      (Cert.KernelIdeal.KernelValue.hArgs m c) (SageBN.varK (Cert.KernelIdeal.KernelValue.hArgs m c))), ?_, ?_⟩
  · exact (θ_run Cert.KernelIdeal.defs _ _).mono
      (fun r h c => ⟨(h c).1.trans (Cert.KernelIdeal.KernelValue.result_eq m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v48_eq, e0, e1, e2, e3, e4, e5, e6, e7]
    exact bridge _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
